-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x512 : Shape := ⟨2, ![2000, 512]⟩
abbrev S2000x64 : Shape := ⟨2, ![2000, 64]⟩
abbrev S1700000x64 : Shape := ⟨2, ![1700000, 64]⟩
abbrev S1x64 : Shape := ⟨2, ![1, 64]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x2, .f32⟩
  | .hbm, ⟨75, _⟩ => ⟨S1700000x1, .f32⟩
  | .hbm, ⟨76, _⟩ => ⟨S1700000x2, .f32⟩
  | .hbm, ⟨77, _⟩ => ⟨S1700000x2, .f32⟩
  | .hbm, ⟨78, _⟩ => ⟨S_, .f32⟩
  | .hbm, ⟨79, _⟩ => ⟨S100000x2, .f32⟩
  | .hbm, ⟨80, _⟩ => ⟨S1700000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x64_S2000x64_1_0_0_1_n_n_wf : DotDims.WF S2000x512 S512x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x2_S2000x2_1_0_0_1_n_n_wf : DotDims.WF S2000x64 S64x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S100000x2.size a
  hwx3_2 : ∀ i : grid3.Coords, EltTy.bits .f32 = 32 ∨ (Rect.block (s := S100000x2) S2000x2.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x2, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x2, .f32⟩
  | 115 => ⟨S1700000x1, .f32⟩
  | 116 => ⟨S1700000x2, .f32⟩
  | 117 => ⟨S1700000x2, .f32⟩
  | 118 => ⟨S_, .f32⟩
  | 119 => ⟨S100000x2, .f32⟩
  | 120 => ⟨S1700000x1, .i32⟩
  | 121 => ⟨S100000x2, .f32⟩
  | 122 => ⟨S1x2, .f32⟩
  | 123 => ⟨S100000x2, .f32⟩
  | 124 => ⟨S100000x2, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x2, .f32⟩
  | 4 => ⟨S100000x2, .f32⟩
  | 5 => ⟨S100000x2, .f32⟩
  | 6 => ⟨S_, .f32⟩
  | 7 => ⟨S100000, .f32⟩
  | 8 => ⟨S100000x1, .f32⟩
  | 9 => ⟨S100000x1, .f32⟩
  | 10 => ⟨S100000x2, .f32⟩
  | 11 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x512_S512x64_S100000x64_1_0_0_1_n_n_wf : DotDims.WF S100000x512 S512x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.HostFns.lean ====
/-
  The sparse stage of a graph convolution, as functions of whole arrays: the edge list with one self loop per node
  appended, each node's degree counted by a scatter-add of ones over the destinations, its inverse square root where the
  degree is positive and zero elsewhere, the symmetric weight of an edge (the product of the two endpoints' inverse
  square roots), and the aggregation itself: gather the transformed features along the sources, scale each edge's row by
  its weight, and scatter-add the rows at the destinations. An index is first wrapped the way array indexing wraps a
  negative one (the extent is added). The terms are the host operations of the program, in its own records.
-/
import proofs.«157829_j3470333575753_1_alg».proof.Proof.Gen.KernelIdeal

noncomputable section

namespace Cert.KernelIdeal.HostFns

open Cert.KernelIdeal Cert.KernelIdeal.Facts₀ Cert.KernelIdeal.Facts Idealize.ShloMosaic

variable {F : FTy → Type} [FloatOps F]

/-- The sources of the edges, then one self loop per node: row 0 of the edge list followed by `0, …, n − 1`. -/
def srcSl (e : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] e slices_S2x1600000_S1x1600000_0_0) shapeCasts_S1x1600000_S1600000⟩,
      ⟨S100000, iotaInDim S100000 32 0⟩]
    concatenates_S1600000_S100000_S1700000_d0

/-- The destinations of the edges, then one self loop per node: row 1 of the edge list followed by `0, …, n − 1`. -/
def dstSl (e : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] e slices_S2x1600000_S1x1600000_1_0) shapeCasts_S1x1600000_S1600000⟩,
      ⟨S100000, iotaInDim S100000 32 0⟩]
    concatenates_S1600000_S100000_S1700000_d0

/-- A node's degree: ones scatter-added at the destinations. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

/-- The inverse square root of the degree where it is positive, zero elsewhere. -/
def invSqrtDeg (dst : (⟨S1700000, .i32⟩ : BufTy).Contents (Elt F)) : (⟨S100000, .f32⟩ : BufTy).Contents (Elt F) :=
  select (cmpf (F := F) .ogt (degree dst) (broadcastInDim S100000 ![] bcast_S_S100000 (constant (F := F) S_ .f32 0x00000000#32)))
    (Host.rsqrt (degree dst))
    (broadcastInDim S100000 ![] bcast_S_S100000 (constant (F := F) S_ .f32 0x00000000#32))

/-- An index vector wrapped as array indexing wraps it (a negative index has the extent added), as a column. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32)))
      v)

/-- The symmetric weight of each edge: the product of its endpoints' inverse square-root degrees. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (invSqrtDeg dst) (wrapIdx src))
    (Host.gather gather_S100000_S1700000x1_S1700000_n_0_n_n_0_1_1 (invSqrtDeg dst) (wrapIdx dst))

/-- The aggregation at feature width 64: rows gathered along the sources, scaled by the edge weights, scatter-added at
    the destinations into zeros. -/
def agg64 (src dst : (⟨S1700000, .i32⟩ : BufTy).Contents (Elt F)) (nrm : (⟨S1700000, .f32⟩ : BufTy).Contents (Elt F))
    (xt : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 dst)
    (mulf (Host.gather gather_S100000x64_S1700000x1_S1700000x64_1_0_n_n_0_1_164 xt (wrapIdx src))
      (broadcastInDim S1700000x64 ![0, 1] bcast_S1700000x1_S1700000x64_0_1
        (broadcastInDim S1700000x1 ![0] bcast_S1700000_S1700000x1_0 nrm)))

/-- The aggregation at feature width 2. -/
def agg2 (src dst : (⟨S1700000, .i32⟩ : BufTy).Contents (Elt F)) (nrm : (⟨S1700000, .f32⟩ : BufTy).Contents (Elt F))
    (xt : (⟨S100000x2, .f32⟩ : BufTy).Contents (Elt F)) : (⟨S100000x2, .f32⟩ : BufTy).Contents (Elt F) :=
  Host.scatterAdd scatter_S100000x2_S1700000x1_S1700000x2_1_0_0_1
    (broadcastInDim S100000x2 ![] bcast_S_S100000x2 (constant (F := F) S_ .f32 0x00000000#32))
    (broadcastInDim S1700000x1 ![0] bcast_S1700000_S1700000x1_0 dst)
    (mulf (Host.gather gather_S100000x2_S1700000x1_S1700000x2_1_0_n_n_0_1_12 xt (wrapIdx src))
      (broadcastInDim S1700000x2 ![0, 1] bcast_S1700000x1_S1700000x2_0_1
        (broadcastInDim S1700000x1 ![0] bcast_S1700000_S1700000x1_0 nrm)))

/-- A bias vector of 64 entries as a one-row matrix. -/
def rowOf64 (b : (⟨S64, .f32⟩ : BufTy).Contents (Elt F)) : (⟨S1x64, .f32⟩ : BufTy).Contents (Elt F) :=
  shapeCast S1x64 b shapeCasts_S64_S1x64

/-- A bias vector of 2 entries as a one-row matrix. -/
def rowOf2 (b : (⟨S2, .f32⟩ : BufTy).Contents (Elt F)) : (⟨S1x2, .f32⟩ : BufTy).Contents (Elt F) :=
  shapeCast S1x2 b shapeCasts_S2_S1x2

end Cert.KernelIdeal.HostFns

end
-- ==== Proof.HostK.lean ====
/-
  What the host stretches of the kernel program leave in the buffers the regions and the later stretches read, as
  functions of the launch memory: the edge endpoints with self loops, the inverse square-root degrees, the edge weights;
  after the first region the aggregation of its result at width 64 and the first bias as a row; after the third region
  the aggregation of its result at width 2 and the second bias as a row. First each stretch by itself, from buffer
  contents that are a variable with the facts the stretch needs; a buffer a stretch or a region does not write keeps its
  contents, which is how the endpoints, the weights and the arguments reach the later stretches. Then the chain through
  the program's segment boundaries.
-/
import proofs.«157829_j3470333575753_1_alg».proof.Proof.Gen.KernelIdeal.Frame
import proofs.«157829_j3470333575753_1_alg».proof.Proof.HostFns
import Idealize.ShloMosaic.Lib.StableHlo.Run

set_option maxRecDepth 16384

noncomputable section

namespace Cert.KernelIdeal.HostSide

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]

/-! ## Buffers a stretch does not write -/

set_option maxHeartbeats 4000000 in
theorem keep0_arg0 (Y : Valuation τ sig (Elt F)) : StableHlo.after (hostOps0 (F := F)) Y (Proc.devRef .tc main_arg0) = Y (Proc.devRef .tc main_arg0) := by
  after_results_simp

set_option maxHeartbeats 4000000 in
theorem keep0_arg2 (Y : Valuation τ sig (Elt F)) : StableHlo.after (hostOps0 (F := F)) Y (Proc.devRef .tc main_arg2) = Y (Proc.devRef .tc main_arg2) := by
  after_results_simp

set_option maxHeartbeats 4000000 in
theorem keep0_arg3 (Y : Valuation τ sig (Elt F)) : StableHlo.after (hostOps0 (F := F)) Y (Proc.devRef .tc main_arg3) = Y (Proc.devRef .tc main_arg3) := by
  after_results_simp

set_option maxHeartbeats 4000000 in
theorem keep0_arg4 (Y : Valuation τ sig (Elt F)) : StableHlo.after (hostOps0 (F := F)) Y (Proc.devRef .tc main_arg4) = Y (Proc.devRef .tc main_arg4) := by
  after_results_simp

set_option maxHeartbeats 4000000 in
theorem keep0_arg5 (Y : Valuation τ sig (Elt F)) : StableHlo.after (hostOps0 (F := F)) Y (Proc.devRef .tc main_arg5) = Y (Proc.devRef .tc main_arg5) := by
  after_results_simp

set_option maxHeartbeats 4000000 in
theorem keep1_v5 (Y : Valuation τ sig (Elt F)) : StableHlo.after (hostOps0_1 (F := F)) Y (Proc.devRef .tc main_v5) = Y (Proc.devRef .tc main_v5) := by
  after_results_simp

set_option maxHeartbeats 4000000 in
theorem keep1_v6 (Y : Valuation τ sig (Elt F)) : StableHlo.after (hostOps0_1 (F := F)) Y (Proc.devRef .tc main_v6) = Y (Proc.devRef .tc main_v6) := by
  after_results_simp

set_option maxHeartbeats 4000000 in
theorem keep1_arg0 (Y : Valuation τ sig (Elt F)) : StableHlo.after (hostOps0_1 (F := F)) Y (Proc.devRef .tc main_arg0) = Y (Proc.devRef .tc main_arg0) := by
  after_results_simp

set_option maxHeartbeats 4000000 in
theorem keep1_arg2 (Y : Valuation τ sig (Elt F)) : StableHlo.after (hostOps0_1 (F := F)) Y (Proc.devRef .tc main_arg2) = Y (Proc.devRef .tc main_arg2) := by
  after_results_simp

set_option maxHeartbeats 4000000 in
theorem keep1_arg3 (Y : Valuation τ sig (Elt F)) : StableHlo.after (hostOps0_1 (F := F)) Y (Proc.devRef .tc main_arg3) = Y (Proc.devRef .tc main_arg3) := by
  after_results_simp

set_option maxHeartbeats 4000000 in
theorem keep1_arg4 (Y : Valuation τ sig (Elt F)) : StableHlo.after (hostOps0_1 (F := F)) Y (Proc.devRef .tc main_arg4) = Y (Proc.devRef .tc main_arg4) := by
  after_results_simp

set_option maxHeartbeats 4000000 in
theorem keep1_arg5 (Y : Valuation τ sig (Elt F)) : StableHlo.after (hostOps0_1 (F := F)) Y (Proc.devRef .tc main_arg5) = Y (Proc.devRef .tc main_arg5) := by
  after_results_simp

set_option maxHeartbeats 4000000 in
theorem keep2_v5 (Y : Valuation τ sig (Elt F)) : StableHlo.after (hostOps0_2 (F := F)) Y (Proc.devRef .tc main_v5) = Y (Proc.devRef .tc main_v5) := by
  after_results_simp

set_option maxHeartbeats 4000000 in
theorem keep2_v6 (Y : Valuation τ sig (Elt F)) : StableHlo.after (hostOps0_2 (F := F)) Y (Proc.devRef .tc main_v6) = Y (Proc.devRef .tc main_v6) := by
  after_results_simp

set_option maxHeartbeats 4000000 in
theorem keep2_arg0 (Y : Valuation τ sig (Elt F)) : StableHlo.after (hostOps0_2 (F := F)) Y (Proc.devRef .tc main_arg0) = Y (Proc.devRef .tc main_arg0) := by
  after_results_simp

set_option maxHeartbeats 4000000 in
theorem keep2_arg2 (Y : Valuation τ sig (Elt F)) : StableHlo.after (hostOps0_2 (F := F)) Y (Proc.devRef .tc main_arg2) = Y (Proc.devRef .tc main_arg2) := by
  after_results_simp

set_option maxHeartbeats 4000000 in
theorem keep2_arg3 (Y : Valuation τ sig (Elt F)) : StableHlo.after (hostOps0_2 (F := F)) Y (Proc.devRef .tc main_arg3) = Y (Proc.devRef .tc main_arg3) := by
  after_results_simp

set_option maxHeartbeats 4000000 in
theorem keep2_arg4 (Y : Valuation τ sig (Elt F)) : StableHlo.after (hostOps0_2 (F := F)) Y (Proc.devRef .tc main_arg4) = Y (Proc.devRef .tc main_arg4) := by
  after_results_simp

set_option maxHeartbeats 4000000 in
theorem keep2_arg5 (Y : Valuation τ sig (Elt F)) : StableHlo.after (hostOps0_2 (F := F)) Y (Proc.devRef .tc main_arg5) = Y (Proc.devRef .tc main_arg5) := by
  after_results_simp

set_option maxHeartbeats 4000000 in
theorem keep3_v5 (Y : Valuation τ sig (Elt F)) : StableHlo.after (hostOps1 (F := F)) Y (Proc.devRef .tc main_v5) = Y (Proc.devRef .tc main_v5) := by
  after_results_simp

set_option maxHeartbeats 4000000 in
theorem keep3_v6 (Y : Valuation τ sig (Elt F)) : StableHlo.after (hostOps1 (F := F)) Y (Proc.devRef .tc main_v6) = Y (Proc.devRef .tc main_v6) := by
  after_results_simp

set_option maxHeartbeats 4000000 in
theorem keep3_v29 (Y : Valuation τ sig (Elt F)) : StableHlo.after (hostOps1 (F := F)) Y (Proc.devRef .tc main_v29) = Y (Proc.devRef .tc main_v29) := by
  after_results_simp

set_option maxHeartbeats 4000000 in
theorem keep3_arg4 (Y : Valuation τ sig (Elt F)) : StableHlo.after (hostOps1 (F := F)) Y (Proc.devRef .tc main_arg4) = Y (Proc.devRef .tc main_arg4) := by
  after_results_simp

set_option maxHeartbeats 4000000 in
theorem keep3_arg5 (Y : Valuation τ sig (Elt F)) : StableHlo.after (hostOps1 (F := F)) Y (Proc.devRef .tc main_arg5) = Y (Proc.devRef .tc main_arg5) := by
  after_results_simp

/-! ## What each stretch computes -/

section Stretches

variable (Y : Valuation τ sig (Elt F))

set_option maxHeartbeats 4000000 in
theorem s0_src (e : (⟨S2x1600000, .i32⟩ : BufTy).Contents (Elt F)) (he : Y (Proc.devRef .tc main_arg1) = e) :
    StableHlo.after (hostOps0 (F := F)) Y (Proc.devRef .tc main_v5) = srcSl e := by
  subst he
  after_results
  all_goals rfl

set_option maxHeartbeats 4000000 in
theorem s0_dst (e : (⟨S2x1600000, .i32⟩ : BufTy).Contents (Elt F)) (he : Y (Proc.devRef .tc main_arg1) = e) :
    StableHlo.after (hostOps0 (F := F)) Y (Proc.devRef .tc main_v6) = dstSl e := by
  subst he
  after_results
  all_goals rfl

set_option maxHeartbeats 4000000 in
theorem s0_pos (e : (⟨S2x1600000, .i32⟩ : BufTy).Contents (Elt F)) (he : Y (Proc.devRef .tc main_arg1) = e) :
    StableHlo.after (hostOps0 (F := F)) Y (Proc.devRef .tc main_v12)
      = cmpf (F := F) .ogt (degree (dstSl e)) (broadcastInDim S100000 ![] bcast_S_S100000 (constant (F := F) S_ .f32 0x00000000#32)) := by
  subst he
  after_results
  all_goals rfl

set_option maxHeartbeats 4000000 in
theorem s0_rsqrt (e : (⟨S2x1600000, .i32⟩ : BufTy).Contents (Elt F)) (he : Y (Proc.devRef .tc main_arg1) = e) :
    StableHlo.after (hostOps0 (F := F)) Y (Proc.devRef .tc main_v13) = Host.rsqrt (degree (dstSl e)) := by
  subst he
  after_results
  all_goals rfl

set_option maxHeartbeats 4000000 in
theorem s0_zero : StableHlo.after (hostOps0 (F := F)) Y (Proc.devRef .tc main_cst_2) = constant (F := F) S_ .f32 0x00000000#32 := by
  after_results
  all_goals rfl

set_option maxHeartbeats 4000000 in
theorem s1_inv (d : (⟨S1700000, .i32⟩ : BufTy).Contents (Elt F))
    (h12 : Y (Proc.devRef .tc main_v12) = cmpf (F := F) .ogt (degree d) (broadcastInDim S100000 ![] bcast_S_S100000 (constant (F := F) S_ .f32 0x00000000#32)))
    (h13 : Y (Proc.devRef .tc main_v13) = Host.rsqrt (degree d)) (hz : Y (Proc.devRef .tc main_cst_2) = constant (F := F) S_ .f32 0x00000000#32) :
    StableHlo.after (hostOps0_1 (F := F)) Y (Proc.devRef .tc main_v14) = invSqrtDeg d := by
  after_results_simp
  all_goals (try simp only [TRef.ofBuf, TRef.toBuf, cast_eq])
  all_goals (rw [h12, h13, hz]; rfl)

set_option maxHeartbeats 4000000 in
theorem s2_norm (s d : (⟨S1700000, .i32⟩ : BufTy).Contents (Elt F)) (h5 : Y (Proc.devRef .tc main_v5) = s) (h6 : Y (Proc.devRef .tc main_v6) = d)
    (h14 : Y (Proc.devRef .tc main_v14) = invSqrtDeg d) :
    StableHlo.after (hostOps0_2 (F := F)) Y (Proc.devRef .tc main_v29) = edgeNorm s d := by
  subst h5 h6
  after_results_simp
  all_goals (rw [h14]; rfl)

set_option maxHeartbeats 4000000 in
theorem s3_agg (s d : (⟨S1700000, .i32⟩ : BufTy).Contents (Elt F)) (n : (⟨S1700000, .f32⟩ : BufTy).Contents (Elt F)) (xt : (⟨S100000x64, .f32⟩ : BufTy).Contents (Elt F))
    (h5 : Y (Proc.devRef .tc main_v5) = s) (h6 : Y (Proc.devRef .tc main_v6) = d) (h29 : Y (Proc.devRef .tc main_v29) = n) (h30 : Y (Proc.devRef .tc main_v30) = xt) :
    StableHlo.after (hostOps1 (F := F)) Y (Proc.devRef .tc main_v43) = agg64 s d n xt := by
  subst h5 h6 h29 h30
  after_results_simp
  all_goals rfl

set_option maxHeartbeats 4000000 in
theorem s3_bias (b : (⟨S64, .f32⟩ : BufTy).Contents (Elt F)) (h : Y (Proc.devRef .tc main_arg3) = b) :
    StableHlo.after (hostOps1 (F := F)) Y (Proc.devRef .tc main_v44) = rowOf64 b := by
  subst h
  after_results_simp
  all_goals rfl

set_option maxHeartbeats 4000000 in
theorem s4_agg (s d : (⟨S1700000, .i32⟩ : BufTy).Contents (Elt F)) (n : (⟨S1700000, .f32⟩ : BufTy).Contents (Elt F)) (xt : (⟨S100000x2, .f32⟩ : BufTy).Contents (Elt F))
    (h5 : Y (Proc.devRef .tc main_v5) = s) (h6 : Y (Proc.devRef .tc main_v6) = d) (h29 : Y (Proc.devRef .tc main_v29) = n) (h46 : Y (Proc.devRef .tc main_v46) = xt) :
    StableHlo.after (hostOps3 (F := F)) Y (Proc.devRef .tc main_v59) = agg2 s d n xt := by
  subst h5 h6 h29 h46
  after_results_simp
  all_goals rfl

set_option maxHeartbeats 4000000 in
theorem s4_bias (b : (⟨S2, .f32⟩ : BufTy).Contents (Elt F)) (h : Y (Proc.devRef .tc main_arg5) = b) :
    StableHlo.after (hostOps3 (F := F)) Y (Proc.devRef .tc main_v60) = rowOf2 b := by
  subst h
  after_results_simp
  all_goals rfl

end Stretches

/-! ## Through the program's segment boundaries -/

variable (m : (ℓ : Loc nD τ sig) → Buf (Elt F) ℓ) (ρ : Dev nD → PrngReg)

theorem src_W1 (c : Dev nD) : W1 m ρ c (Proc.devRef .tc main_v5) = srcSl (m ((c : Thread nD τ).loc main_arg1)) := s0_src (W0 m ρ c) _ rfl
theorem dst_W1 (c : Dev nD) : W1 m ρ c (Proc.devRef .tc main_v6) = dstSl (m ((c : Thread nD τ).loc main_arg1)) := s0_dst (W0 m ρ c) _ rfl
theorem src_W2 (c : Dev nD) : W2 m ρ c (Proc.devRef .tc main_v5) = srcSl (m ((c : Thread nD τ).loc main_arg1)) := (keep1_v5 (W1 m ρ c)).trans (src_W1 m ρ c)
theorem dst_W2 (c : Dev nD) : W2 m ρ c (Proc.devRef .tc main_v6) = dstSl (m ((c : Thread nD τ).loc main_arg1)) := (keep1_v6 (W1 m ρ c)).trans (dst_W1 m ρ c)
theorem inv_W2 (c : Dev nD) : W2 m ρ c (Proc.devRef .tc main_v14) = invSqrtDeg (dstSl (m ((c : Thread nD τ).loc main_arg1))) :=
  s1_inv (W1 m ρ c) _ (s0_pos (W0 m ρ c) _ rfl) (s0_rsqrt (W0 m ρ c) _ rfl) (s0_zero (W0 m ρ c))
theorem src_W3 (c : Dev nD) : W3 m ρ c (Proc.devRef .tc main_v5) = srcSl (m ((c : Thread nD τ).loc main_arg1)) := (keep2_v5 (W2 m ρ c)).trans (src_W2 m ρ c)
theorem dst_W3 (c : Dev nD) : W3 m ρ c (Proc.devRef .tc main_v6) = dstSl (m ((c : Thread nD τ).loc main_arg1)) := (keep2_v6 (W2 m ρ c)).trans (dst_W2 m ρ c)
theorem norm_W3 (c : Dev nD) : W3 m ρ c (Proc.devRef .tc main_v29) = edgeNorm (srcSl (m ((c : Thread nD τ).loc main_arg1))) (dstSl (m ((c : Thread nD τ).loc main_arg1))) :=
  s2_norm (W2 m ρ c) _ _ (src_W2 m ρ c) (dst_W2 m ρ c) (inv_W2 m ρ c)
theorem arg0_W3 (c : Dev nD) : W3 m ρ c (Proc.devRef .tc main_arg0) = (m ((c : Thread nD τ).loc main_arg0)) :=
  (keep2_arg0 (W2 m ρ c)).trans ((keep1_arg0 (W1 m ρ c)).trans ((keep0_arg0 (W0 m ρ c)).trans rfl))
theorem arg2_W3 (c : Dev nD) : W3 m ρ c (Proc.devRef .tc main_arg2) = (m ((c : Thread nD τ).loc main_arg2)) :=
  (keep2_arg2 (W2 m ρ c)).trans ((keep1_arg2 (W1 m ρ c)).trans ((keep0_arg2 (W0 m ρ c)).trans rfl))
theorem arg3_W3 (c : Dev nD) : W3 m ρ c (Proc.devRef .tc main_arg3) = (m ((c : Thread nD τ).loc main_arg3)) :=
  (keep2_arg3 (W2 m ρ c)).trans ((keep1_arg3 (W1 m ρ c)).trans ((keep0_arg3 (W0 m ρ c)).trans rfl))
theorem arg4_W3 (c : Dev nD) : W3 m ρ c (Proc.devRef .tc main_arg4) = (m ((c : Thread nD τ).loc main_arg4)) :=
  (keep2_arg4 (W2 m ρ c)).trans ((keep1_arg4 (W1 m ρ c)).trans ((keep0_arg4 (W0 m ρ c)).trans rfl))
theorem arg5_W3 (c : Dev nD) : W3 m ρ c (Proc.devRef .tc main_arg5) = (m ((c : Thread nD τ).loc main_arg5)) :=
  (keep2_arg5 (W2 m ρ c)).trans ((keep1_arg5 (W1 m ρ c)).trans ((keep0_arg5 (W0 m ρ c)).trans rfl))

/-! ### The first region's exit, and the stretch after it -/

theorem prod1_W4 (c : Dev nD) : W4 m ρ c (Proc.devRef .tc main_v30) = (dat0 (V3 m ρ) c).arrAt 2 cfg0.N := W4_arr m ρ c 2
theorem src_W4 (c : Dev nD) : W4 m ρ c (Proc.devRef .tc main_v5) = srcSl (m ((c : Thread nD τ).loc main_arg1)) := (W4_of_ne m ρ c main_v5 (by decide)).trans (src_W3 m ρ c)
theorem dst_W4 (c : Dev nD) : W4 m ρ c (Proc.devRef .tc main_v6) = dstSl (m ((c : Thread nD τ).loc main_arg1)) := (W4_of_ne m ρ c main_v6 (by decide)).trans (dst_W3 m ρ c)
theorem norm_W4 (c : Dev nD) : W4 m ρ c (Proc.devRef .tc main_v29) = edgeNorm (srcSl (m ((c : Thread nD τ).loc main_arg1))) (dstSl (m ((c : Thread nD τ).loc main_arg1))) := (W4_of_ne m ρ c main_v29 (by decide)).trans (norm_W3 m ρ c)
theorem arg3_W4 (c : Dev nD) : W4 m ρ c (Proc.devRef .tc main_arg3) = (m ((c : Thread nD τ).loc main_arg3)) := (W4_of_ne m ρ c main_arg3 (by decide)).trans (arg3_W3 m ρ c)
theorem arg4_W4 (c : Dev nD) : W4 m ρ c (Proc.devRef .tc main_arg4) = (m ((c : Thread nD τ).loc main_arg4)) := (W4_of_ne m ρ c main_arg4 (by decide)).trans (arg4_W3 m ρ c)
theorem arg5_W4 (c : Dev nD) : W4 m ρ c (Proc.devRef .tc main_arg5) = (m ((c : Thread nD τ).loc main_arg5)) := (W4_of_ne m ρ c main_arg5 (by decide)).trans (arg5_W3 m ρ c)
theorem agg1_W5 (c : Dev nD) : W5 m ρ c (Proc.devRef .tc main_v43) = agg64 (srcSl (m ((c : Thread nD τ).loc main_arg1))) (dstSl (m ((c : Thread nD τ).loc main_arg1))) (edgeNorm (srcSl (m ((c : Thread nD τ).loc main_arg1))) (dstSl (m ((c : Thread nD τ).loc main_arg1)))) ((dat0 (V3 m ρ) c).arrAt 2 cfg0.N) :=
  s3_agg (W4 m ρ c) _ _ _ _ (src_W4 m ρ c) (dst_W4 m ρ c) (norm_W4 m ρ c) (prod1_W4 m ρ c)
theorem bias1_W5 (c : Dev nD) : W5 m ρ c (Proc.devRef .tc main_v44) = rowOf64 (m ((c : Thread nD τ).loc main_arg3)) := s3_bias (W4 m ρ c) _ (arg3_W4 m ρ c)
theorem src_W5 (c : Dev nD) : W5 m ρ c (Proc.devRef .tc main_v5) = srcSl (m ((c : Thread nD τ).loc main_arg1)) := (keep3_v5 (W4 m ρ c)).trans (src_W4 m ρ c)
theorem dst_W5 (c : Dev nD) : W5 m ρ c (Proc.devRef .tc main_v6) = dstSl (m ((c : Thread nD τ).loc main_arg1)) := (keep3_v6 (W4 m ρ c)).trans (dst_W4 m ρ c)
theorem norm_W5 (c : Dev nD) : W5 m ρ c (Proc.devRef .tc main_v29) = edgeNorm (srcSl (m ((c : Thread nD τ).loc main_arg1))) (dstSl (m ((c : Thread nD τ).loc main_arg1))) := (keep3_v29 (W4 m ρ c)).trans (norm_W4 m ρ c)
theorem arg4_W5 (c : Dev nD) : W5 m ρ c (Proc.devRef .tc main_arg4) = (m ((c : Thread nD τ).loc main_arg4)) := (keep3_arg4 (W4 m ρ c)).trans (arg4_W4 m ρ c)
theorem arg5_W5 (c : Dev nD) : W5 m ρ c (Proc.devRef .tc main_arg5) = (m ((c : Thread nD τ).loc main_arg5)) := (keep3_arg5 (W4 m ρ c)).trans (arg5_W4 m ρ c)

/-! ### The second and third regions' exits -/

theorem relu_W6 (c : Dev nD) : W6 m ρ c (Proc.devRef .tc main_v45) = (dat1 (V5 m ρ) c).arrAt 2 cfg1.N := W6_arr m ρ c 2
theorem src_W6 (c : Dev nD) : W6 m ρ c (Proc.devRef .tc main_v5) = srcSl (m ((c : Thread nD τ).loc main_arg1)) := (W6_of_ne m ρ c main_v5 (by decide)).trans (src_W5 m ρ c)
theorem dst_W6 (c : Dev nD) : W6 m ρ c (Proc.devRef .tc main_v6) = dstSl (m ((c : Thread nD τ).loc main_arg1)) := (W6_of_ne m ρ c main_v6 (by decide)).trans (dst_W5 m ρ c)
theorem norm_W6 (c : Dev nD) : W6 m ρ c (Proc.devRef .tc main_v29) = edgeNorm (srcSl (m ((c : Thread nD τ).loc main_arg1))) (dstSl (m ((c : Thread nD τ).loc main_arg1))) := (W6_of_ne m ρ c main_v29 (by decide)).trans (norm_W5 m ρ c)
theorem arg4_W6 (c : Dev nD) : W6 m ρ c (Proc.devRef .tc main_arg4) = (m ((c : Thread nD τ).loc main_arg4)) := (W6_of_ne m ρ c main_arg4 (by decide)).trans (arg4_W5 m ρ c)
theorem arg5_W6 (c : Dev nD) : W6 m ρ c (Proc.devRef .tc main_arg5) = (m ((c : Thread nD τ).loc main_arg5)) := (W6_of_ne m ρ c main_arg5 (by decide)).trans (arg5_W5 m ρ c)
theorem prod2_W7 (c : Dev nD) : W7 m ρ c (Proc.devRef .tc main_v46) = (dat2 (V6 m ρ) c).arrAt 2 cfg2.N := W7_arr m ρ c 2
theorem src_W7 (c : Dev nD) : W7 m ρ c (Proc.devRef .tc main_v5) = srcSl (m ((c : Thread nD τ).loc main_arg1)) := (W7_of_ne m ρ c main_v5 (by decide)).trans (src_W6 m ρ c)
theorem dst_W7 (c : Dev nD) : W7 m ρ c (Proc.devRef .tc main_v6) = dstSl (m ((c : Thread nD τ).loc main_arg1)) := (W7_of_ne m ρ c main_v6 (by decide)).trans (dst_W6 m ρ c)
theorem norm_W7 (c : Dev nD) : W7 m ρ c (Proc.devRef .tc main_v29) = edgeNorm (srcSl (m ((c : Thread nD τ).loc main_arg1))) (dstSl (m ((c : Thread nD τ).loc main_arg1))) := (W7_of_ne m ρ c main_v29 (by decide)).trans (norm_W6 m ρ c)
theorem arg5_W7 (c : Dev nD) : W7 m ρ c (Proc.devRef .tc main_arg5) = (m ((c : Thread nD τ).loc main_arg5)) := (W7_of_ne m ρ c main_arg5 (by decide)).trans (arg5_W6 m ρ c)

/-! ### The stretch before the last region -/

theorem agg2_W8 (c : Dev nD) : W8 m ρ c (Proc.devRef .tc main_v59) = agg2 (srcSl (m ((c : Thread nD τ).loc main_arg1))) (dstSl (m ((c : Thread nD τ).loc main_arg1))) (edgeNorm (srcSl (m ((c : Thread nD τ).loc main_arg1))) (dstSl (m ((c : Thread nD τ).loc main_arg1)))) ((dat2 (V6 m ρ) c).arrAt 2 cfg2.N) :=
  s4_agg (W7 m ρ c) _ _ _ _ (src_W7 m ρ c) (dst_W7 m ρ c) (norm_W7 m ρ c) (prod2_W7 m ρ c)
theorem bias2_W8 (c : Dev nD) : W8 m ρ c (Proc.devRef .tc main_v60) = rowOf2 (m ((c : Thread nD τ).loc main_arg5)) := s4_bias (W7 m ρ c) _ (arg5_W7 m ρ c)

end Cert.KernelIdeal.HostSide

end
-- ==== Proof.Spec.lean ====
/-
  The four dense stages of a two-layer graph convolution, as functions of whole arrays over the extended reals, index by
  index: the product of two matrices; a row vector added to every row of a matrix; the positive part; and the
  logarithm of a row-wise softmax, taken the stable way (the row's maximum subtracted first). The sparse stage between
  them (gather along edges, scale, scatter-add) is the same host computation in both programs and is not opened.
-/
import Idealize.ShloMosaic.Lib.ValueIdx
import Idealize.ShloMosaic.PureOps.Ideal

noncomputable section

open scoped BigOperators

namespace Cert.Gcn

open Idealize.ShloMosaic Idealize.ShloMosaic.ValueIdx

/-- The product of an `[n, k]` matrix and a `[k, d]` matrix: entry `(r, j)` is `∑ q, x (r, q) · w (q, j)`. -/
def matProd (n k d : ℕ) (x : FVec Ideal ⟨2, ![n, k]⟩ .f32) (w : FVec Ideal ⟨2, ![k, d]⟩ .f32) : FVec Ideal ⟨2, ![n, d]⟩ .f32 :=
  fun i => ∑ q : Fin k, x (ix2 (i 0) q) * w (ix2 q (i 1))

/-- A row vector, kept as a `[1, d]` matrix, added to every row of an `[n, d]` matrix. -/
def addRow (n d : ℕ) (a : FVec Ideal ⟨2, ![n, d]⟩ .f32) (b : FVec Ideal ⟨2, ![1, d]⟩ .f32) : FVec Ideal ⟨2, ![n, d]⟩ .f32 :=
  fun i => a i + b (ix2 (0 : Fin 1) (i 1))

/-- The positive part, entry by entry: the maximum with the value of the f32 zero word. -/
def posPart (n d : ℕ) (a : FVec Ideal ⟨2, ![n, d]⟩ .f32) : FVec Ideal ⟨2, ![n, d]⟩ .f32 :=
  fun i => max (a i) (Ideal.ofBits .f32 0x00000000#32)

/-- The maximum of row `r`, folded from the value of the f32 word of minus infinity. -/
def rowMax (n d : ℕ) (z : FVec Ideal ⟨2, ![n, d]⟩ .f32) (r : Fin n) : Ideal .f32 :=
  (Finset.univ : Finset (Fin d)).fold max (Ideal.ofBits .f32 0xFF800000#32) (fun k => z (ix2 r k))

/-- The logarithm of the softmax of each row: with `s (r, j) = z (r, j) − max_r`, entry `(r, j)` is
    `s (r, j) − log (∑ q, exp (s (r, q)))`. -/
def logSoftmaxRows (n d : ℕ) (z : FVec Ideal ⟨2, ![n, d]⟩ .f32) : FVec Ideal ⟨2, ![n, d]⟩ .f32 :=
  fun i => (z i - rowMax n d z (i 0)) - Ideal.log (∑ q : Fin d, Ideal.exp (z (ix2 (i 0) q) - rowMax n d z (i 0)))

end Cert.Gcn

end
-- ==== Proof.Gcn.lean ====
/-
  The two-layer graph convolution as ONE function of the six inputs over the extended reals: features times the first
  weights, aggregated along the edges, plus the first bias, positive part; times the second weights, aggregated again,
  plus the second bias, logarithm of the row-wise softmax. Both programs compute this function.
-/
import proofs.«157829_j3470333575753_1_alg».proof.Proof.HostFns
import proofs.«157829_j3470333575753_1_alg».proof.Proof.Spec

noncomputable section

namespace Cert.Gcn

open Cert.KernelIdeal Cert.KernelIdeal.HostFns Idealize.ShloMosaic

/-- The first layer: `max (agg (x · W₁) + b₁) 0`. -/
def layer1 (x : (⟨S100000x512, .f32⟩ : BufTy).Contents (Elt Ideal)) (e : (⟨S2x1600000, .i32⟩ : BufTy).Contents (Elt Ideal))
    (w1 : (⟨S512x64, .f32⟩ : BufTy).Contents (Elt Ideal)) (b1 : (⟨S64, .f32⟩ : BufTy).Contents (Elt Ideal)) :
    (⟨S100000x64, .f32⟩ : BufTy).Contents (Elt Ideal) :=
  posPart 100000 64 (addRow 100000 64
    (agg64 (srcSl e) (dstSl e) (edgeNorm (srcSl e) (dstSl e)) (matProd 100000 512 64 x w1)) (rowOf64 b1))

/-- The whole network: `logSoftmax (agg (layer₁ · W₂) + b₂)`, row by row. -/
def gcnOut (x : (⟨S100000x512, .f32⟩ : BufTy).Contents (Elt Ideal)) (e : (⟨S2x1600000, .i32⟩ : BufTy).Contents (Elt Ideal))
    (w1 : (⟨S512x64, .f32⟩ : BufTy).Contents (Elt Ideal)) (b1 : (⟨S64, .f32⟩ : BufTy).Contents (Elt Ideal))
    (w2 : (⟨S64x2, .f32⟩ : BufTy).Contents (Elt Ideal)) (b2 : (⟨S2, .f32⟩ : BufTy).Contents (Elt Ideal)) :
    (⟨S100000x2, .f32⟩ : BufTy).Contents (Elt Ideal) :=
  logSoftmaxRows 100000 2 (addRow 100000 2
    (agg2 (srcSl e) (dstSl e) (edgeNorm (srcSl e) (dstSl e)) (matProd 100000 64 2 (layer1 x e w1 b1) w2)) (rowOf2 b2))

end Cert.Gcn

end
-- ==== Proof.Region0.lean ====
/-
  The first dense stage of the kernel: the region's output array is the product of its two operand arrays. Each grid
  point multiplies a block of 2000 rows of the first operand by the whole second operand; over the extended reals the
  roundings of the operands are the identity and the product into the zero accumulator is the plain sum, so each block
  written back is that block of rows of the product, and the 50 blocks tile the array.
-/
import proofs.«157829_j3470333575753_1_alg».proof.Proof.Gen.KernelIdeal.Frame
import proofs.«157829_j3470333575753_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-! ## The body's product at an index -/

/-- The left operand's index at output index `i` and contraction index `q`: its row is the output's row, -/
theorem lhs_prod_0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
/-- its column the contraction index; -/
theorem lhs_prod_1 (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
/-- the right operand's row is the contraction index, -/
theorem rhs_prod_0 (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
/-- its column the output's column. -/
theorem rhs_prod_1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- The body's result at row `p`, column `q` of a block: over the extended reals the two roundings to bf16 are the
    identity and the product into the zero accumulator is the plain sum `∑ k, x0 (p, k) · x1 (k, q)`. -/
theorem pay_apply (x0 : Vec Ideal S2000x512 .f32) (x1 : Vec Ideal S512x64 .f32) (p : Fin 2000) (q : Fin 64) :
    k0_pay1 x0 x1 (ix2 p q) = ∑ k : Fin 512, x0 (ix2 p k) * x1 (ix2 k q) := by
  unfold k0_pay1
  refine (Ideal.matmul_constant_zero_apply dot_S2000x512_S512x64_S2000x64_1_0_0_1_n_n none (truncf (F := Ideal) .bf16 x0 bitsLt_bf16_f32)
    (truncf (F := Ideal) .bf16 x1 bitsLt_bf16_f32) (ix2 p q)).trans ?_
  rw [← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact lhs_prod_0 _ _
    | ⟨1, _⟩ => exact (lhs_prod_1 _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (rhs_prod_0 _ _).trans hk
    | ⟨1, _⟩ => exact rhs_prod_1 _ _)
  rw [truncf_apply, truncf_apply, el, er]

/-! ## From the blocks to the array -/

theorem zero_off : (![0, 0] : Fin 2 → Nat) = fun _ => 0 := funext fun a => by fin_cases a <;> rfl

/-- The printed index maps, decided over the grid: the first operand's window moves down its rows with the output's,
    at column block 0; the second operand's window is the whole operand at every point; the output's window stays at
    column block 0 and its row block is one of the 50. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the 50 row blocks is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- The first operand's block at point `t`, at row `p` and column `k`, is the operand at row `r`, the row of the array
    that row `p` of the output's block is, and column `k`. -/
theorem lhs_block_apply (c : Dev nD) (t : Fin cfg0.N) (p : Fin 2000) (k : Fin 512) (r : Fin 100000)
    (hr : r.val = win0_2.index t (0 : Fin 2) * 2000 + 1 * p.val) :
    (iblk0 V c 0 t : Vec Ideal S2000x512 .f32) (ix2 p k) = (V c main_arg0 : FVec Ideal S100000x512 .f32) (ix2 r k) := by
  obtain ⟨e0, e1, e2, e3, e4, e5⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The second operand's block at any point is the operand. -/
theorem rhs_block_apply (c : Dev nD) (t : Fin cfg0.N) (k : Fin 512) (q : Fin 64) :
    (iblk0 V c 1 t : Vec Ideal S512x64 .f32) (ix2 k q) = (V c main_arg2 : FVec Ideal S512x64 .f32) (ix2 k q) := by
  obtain ⟨e0, e1, e2, e3, e4, e5⟩ := idx_facts t
  unfold iblk0
  rw [View.read_apply]
  show V c main_arg2 _ = V c main_arg2 _
  congr 1
  funext a
  apply Fin.ext
  match a with
  | ⟨0, _⟩ => show win0_1.index t (0 : Fin 2) * 512 + 1 * k.val = k.val; omega
  | ⟨1, _⟩ => show win0_1.index t (1 : Fin 2) * 64 + 1 * q.val = q.val; omega

/-- What point `t` writes back is block `t` of the product of the two operands as the region finds them. -/
theorem flushed_eq (c : Dev nD) (t : Fin cfg0.N) :
    (dat0 (F := Ideal) V c).flushed 2 t
      = ((cfg0.win 2).blk t).view.read (Elt Ideal) (matProd 100000 512 64 (V c main_arg0) (V c main_arg2)) := by
  show (cfg0.win 2).cut (grid0.coords t) ((dat0 V c).after 2 t) = _
  rw [after0_2]
  unfold out0_2
  rw [View.canon_unit_zero zero_off]
  simp only [View.ld_unit_zero (S := S2000x512) zero_off, View.ld_unit_zero (S := S512x64) zero_off]
  obtain ⟨e0, e1, e2, e3, e4, e5⟩ := idx_facts t
  funext j
  show k0_pay1 (iblk0 V c 0 t) (iblk0 V c 1 t) j
    = matProd 100000 512 64 (V c main_arg0) (V c main_arg2) (((cfg0.win 2).blk t).view.emb j)
  obtain ⟨p, q, hj⟩ : ∃ (p : Fin 2000) (q : Fin 64), (j : S2000x64.Idx) = ix2 p q := ⟨j 0, j 1, eq_ix2 (n0 := 2000) (n1 := 64) j⟩
  subst hj
  refine (pay_apply (iblk0 V c 0 t) (iblk0 V c 1 t) p q).trans ?_
  unfold matProd
  refine Finset.sum_congr rfl fun k _ => ?_
  have hq : ((((cfg0.win 2).blk t).view.emb (ix2 p q)) 1 : Fin 64) = q :=
    Fin.ext (by show win0_2.index t (1 : Fin 2) * 64 + 1 * q.val = q.val; omega)
  have hl := lhs_block_apply V c t p k ((((cfg0.win 2).blk t).view.emb (ix2 p q)) 0) rfl
  have hr := rhs_block_apply V c t k q
  rw [hl, hr, hq]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The blocks cover the array: row `r` is in the block of the point whose row block is `r / 2000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The region's output array is the product of its two operand arrays as the region finds them. -/
theorem array_eq (c : Dev nD) :
    (dat0 (F := Ideal) V c).arrAt 2 cfg0.N = matProd 100000 512 64 (V c main_arg0) (V c main_arg2) :=
  (dat0 V c).arrAt_eq_of_cover 2 (matProd 100000 512 64 (V c main_arg0) (V c main_arg2)) (fun t _ => flushed_eq V c t) cover

end Cert.KernelIdeal.Region0

end
-- ==== Proof.Region1.lean ====
/-
  The second region adds the bias row to every row of its input and takes the positive part, row tile by row tile: its
  output array is, entry by entry, the positive part of the input array plus the bias row, because each tile's result is
  that function on the tile's rows and the fifty tiles of 2000 rows cover the array.
-/
import proofs.«157829_j3470333575753_1_alg».proof.Proof.Gen.KernelIdeal.Frame
import proofs.«157829_j3470333575753_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-! ## The body at an entry: the bias row added, then the positive part -/

/-- Entry `(p, q)` of the body's result on a `[2000, 64]` block `x0` and the `[1, 64]` bias row `x1`: the block's entry
    plus the row's entry of column `q`, then the maximum with the value of the zero word. -/
theorem biasRelu_apply (x0 : Vec Ideal S2000x64 .f32) (x1 : Vec Ideal S1x64 .f32) (p : Fin 2000) (q : Fin 64) :
    k1_pay1 x0 x1 (ix2 p q) = max (x0 (ix2 p q) + x1 (ix2 (0 : Fin 1) q)) (Ideal.ofBits .f32 0x00000000#32) := by
  unfold k1_pay1
  show max (shapeCast S2000x64 x0 shapeCasts_S2000x64_S2000x64 (ix2 p q)
      + broadcastTo S2000x64 (shapeCast S1x64 x1 shapeCasts_S1x64_S1x64) broadcasts_S1x64_S2000x64 (ix2 p q))
    (Ideal.ofBits .f32 0x00000000#32) = _
  rw [shapeCast_self, shapeCast_self, broadcastTo_1b_ab_apply]

/-- Entry `i'` of the positive part of the sum with the bias row, from the matrix read at an equal index `i` and the row
    read at an index `k` equal to `(0, i' 1)`. -/
theorem posPart_addRow_eq (a : FVec Ideal ⟨2, ![100000, 64]⟩ .f32) (b : FVec Ideal ⟨2, ![1, 64]⟩ .f32)
    (i i' : (⟨2, ![100000, 64]⟩ : Shape).Idx) (k : (⟨2, ![1, 64]⟩ : Shape).Idx) (hi : i = i') (hk : k = ix2 (0 : Fin 1) (i' 1)) :
    max (a i + b k) (Ideal.ofBits .f32 0x00000000#32) = posPart 100000 64 (addRow 100000 64 a b) i' := by
  subst hi hk; rfl

/-! ## The blocks: where each window's block sits at a grid point -/

/-- The offsets `(0, 0)` are zero on every axis. -/
theorem zeroOffsets : (![0, 0] : Fin 2 → Nat) = fun _ => 0 := funext fun a => by fin_cases a <;> rfl

/-- The windows' block indices at each of the 50 grid points: the input's block of rows moves with the output's, both
    start at column 0, the bias row's block is always the whole row, and the output's row-block index stays below 50. -/
theorem blockIndex_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every one of the 50 row blocks is some grid point's output block. -/
theorem blockIndex_onto : ∀ r : Fin 50, ∃ t : Fin cfg1.N, win1_2.index t = ![r.val, 0] :=
  (by decide +kernel : ∀ r : Fin 50, ∃ t : Fin grid1.N, win1_2.index t = ![r.val, 0])

/-- What grid point `t` writes back is its block of rows of the positive part of the sum with the bias row. -/
theorem flushed_eq (c : Dev nD) (t : Fin cfg1.N) :
    (dat1 (F := Ideal) V c).flushed 2 t
      = ((cfg1.win 2).blk t).view.read (Elt Ideal) (posPart 100000 64 (addRow 100000 64 (V c main_v43) (V c main_v44))) := by
  show (cfg1.win 2).cut (grid1.coords t) ((dat1 V c).after 2 t) = _
  rw [after1_2]
  unfold out1_2
  rw [View.canon_unit_zero zeroOffsets]
  simp only [View.ld_unit_zero (S := S2000x64) zeroOffsets, View.ld_unit_zero (S := S1x64) zeroOffsets]
  obtain ⟨e0, e1, e2, e3, e4, e5⟩ := blockIndex_facts t
  funext j
  obtain ⟨p, q, rfl⟩ : ∃ (p : Fin 2000) (q : Fin 64), j = ix2 p q := ⟨j 0, j 1, eq_ix2 j⟩
  refine (biasRelu_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * (0 : Fin 1).val = (0 : Fin 1).val; omega
    | ⟨1, _⟩ => show win1_1.index t (1 : Fin 2) * 64 + 1 * q.val = win1_2.index t (1 : Fin 2) * 64 + 1 * q.val; omega
  exact posPart_addRow_eq (V c main_v43) (V c main_v44) (((cfg1.win 0).blk t).view.emb (ix2 p q))
    (((cfg1.win 2).blk t).view.emb (ix2 p q)) (((cfg1.win 1).blk t).view.emb (ix2 (0 : Fin 1) q)) h0 h1

/-- An index of the `[100000, 64]` array is in point `t`'s output block iff each coordinate is in the block's range. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v45).slice (win1_2.rect t)).set ↔ _
  rw [View.set_slice_whole, Rect.mem_set_unit]
  exact Iff.rfl

/-- The 50 blocks of 2000 rows fill the array: row `r` is in block `r / 2000`. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockIndex_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the region the output array is, entry by entry, the positive part of the input matrix plus the bias row. -/
theorem array_eq (c : Dev nD) :
    (dat1 (F := Ideal) V c).arrAt 2 cfg1.N = posPart 100000 64 (addRow 100000 64 (V c main_v43) (V c main_v44)) :=
  (dat1 (F := Ideal) V c).arrAt_eq_of_cover 2 (posPart 100000 64 (addRow 100000 64 (V c main_v43) (V c main_v44)))
    (fun t _ => flushed_eq V c t) covered

end Cert.KernelIdeal.Region1

end
-- ==== Proof.Region2.lean ====
/-
  The second product of the kernel: the region's output array is the product of its two operand arrays. Each grid
  point multiplies a block of 2000 rows of the first operand by the whole second operand; the body's reshape of its
  block to the same shape is the identity, over the extended reals the roundings of the operands are the identity and
  the product into the zero accumulator is the plain sum, so each block written back is that block of rows of the
  product, and the 50 blocks tile the array.
-/
import proofs.«157829_j3470333575753_1_alg».proof.Proof.Gen.KernelIdeal.Frame
import proofs.«157829_j3470333575753_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-! ## The body's product at an index -/

/-- The left operand's index at output index `i` and contraction index `q`: its row is the output's row, -/
theorem lhs_prod_0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch by decide), dif_pos (show (0 : Fin S2000x64.rank) ∈ dot_S2000x64_S64x2_S2000x2_1_0_0_1_n_n.lhsNonContracting by decide)]
  rfl
/-- its column the contraction index; -/
theorem lhs_prod_1 (i : S2000x2.Idx) (q : dot_S2000x64_S64x2_S2000x2_1_0_0_1_n_n.contr.Idx) :
    (dot_S2000x64_S64x2_S2000x2_1_0_0_1_n_n.lhsIdx i q 1).val = (q ⟨0, by decide⟩).val :=
  dot_S2000x64_S64x2_S2000x2_1_0_0_1_n_n.lhsIdx_val_of_single rfl i q
/-- the right operand's row is the contraction index, -/
theorem rhs_prod_0 (i : S2000x2.Idx) (q : dot_S2000x64_S64x2_S2000x2_1_0_0_1_n_n.contr.Idx) :
    (dot_S2000x64_S64x2_S2000x2_1_0_0_1_n_n.rhsIdx i q 0).val = (q ⟨0, by decide⟩).val :=
  dot_S2000x64_S64x2_S2000x2_1_0_0_1_n_n.rhsIdx_val_of_single rfl i q
/-- its column the output's column. -/
theorem rhs_prod_1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch by decide), dif_pos (show (1 : Fin S64x2.rank) ∈ dot_S2000x64_S64x2_S2000x2_1_0_0_1_n_n.rhsNonContracting by decide)]
  rfl

/-- The body's result at row `p`, column `q` of a block: over the extended reals the two roundings to bf16 are the
    identity and the product into the zero accumulator is the plain sum `∑ k, x0 (p, k) · x1 (k, q)`; the reshape of the
    first block to its own shape is the identity. -/
theorem pay_apply (x0 : Vec Ideal S2000x64 .f32) (x1 : Vec Ideal S64x2 .f32) (p : Fin 2000) (q : Fin 2) :
    k2_pay1 x0 x1 (ix2 p q) = ∑ k : Fin 64, x0 (ix2 p k) * x1 (ix2 k q) := by
  unfold k2_pay1
  refine (Ideal.matmul_constant_zero_apply dot_S2000x64_S64x2_S2000x2_1_0_0_1_n_n none (truncf (F := Ideal) .bf16 (shapeCast S2000x64 x0 shapeCasts_S2000x64_S2000x64) bitsLt_bf16_f32)
    (truncf (F := Ideal) .bf16 x1 bitsLt_bf16_f32) (ix2 p q)).trans ?_
  rw [← Equiv.sum_comp (ValueIdx.contrEquiv1 dot_S2000x64_S64x2_S2000x2_1_0_0_1_n_n 64 rfl rfl).symm]
  refine Finset.sum_congr rfl fun k _ => ?_
  have hk := ValueIdx.contrEquiv1_symm_val dot_S2000x64_S64x2_S2000x2_1_0_0_1_n_n 64 rfl rfl k
  have el : dot_S2000x64_S64x2_S2000x2_1_0_0_1_n_n.lhsIdx (ix2 p q) ((ValueIdx.contrEquiv1 dot_S2000x64_S64x2_S2000x2_1_0_0_1_n_n 64 rfl rfl).symm k) = ix2 p k := funext fun a => Fin.ext (by
    match a with
    | ⟨0, _⟩ => exact lhs_prod_0 _ _
    | ⟨1, _⟩ => exact (lhs_prod_1 _ _).trans hk)
  have er : dot_S2000x64_S64x2_S2000x2_1_0_0_1_n_n.rhsIdx (ix2 p q) ((ValueIdx.contrEquiv1 dot_S2000x64_S64x2_S2000x2_1_0_0_1_n_n 64 rfl rfl).symm k) = ix2 k q := funext fun a => Fin.ext (by
    match a with
    | ⟨0, _⟩ => exact (rhs_prod_0 _ _).trans hk
    | ⟨1, _⟩ => exact rhs_prod_1 _ _)
  rw [truncf_apply, truncf_apply, shapeCast_self, el, er]

/-! ## From the blocks to the array -/

theorem zero_off : (![0, 0] : Fin 2 → Nat) = fun _ => 0 := funext fun a => by fin_cases a <;> rfl

/-- The printed index maps, decided over the grid: the first operand's window moves down its rows with the output's,
    at column block 0; the second operand's window is the whole operand at every point; the output's window stays at
    column block 0 and its row block is one of the 50. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every one of the 50 row blocks is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- The first operand's block at point `t`, at row `p` and column `k`, is the operand at row `r`, the row of the array
    that row `p` of the output's block is, and column `k`. -/
theorem lhs_block_apply (c : Dev nD) (t : Fin cfg2.N) (p : Fin 2000) (k : Fin 64) (r : Fin 100000)
    (hr : r.val = win2_2.index t (0 : Fin 2) * 2000 + 1 * p.val) :
    (iblk2 V c 0 t : Vec Ideal S2000x64 .f32) (ix2 p k) = (V c main_v45 : FVec Ideal S100000x64 .f32) (ix2 r k) := by
  obtain ⟨e0, e1, e2, e3, e4, e5⟩ := idx_facts t
  unfold iblk2
  rw [View.read_apply]
  show V c main_v45 _ = V c main_v45 _
  congr 1
  funext a
  apply Fin.ext
  match a with
  | ⟨0, _⟩ => show win2_0.index t (0 : Fin 2) * 2000 + 1 * p.val = r.val; omega
  | ⟨1, _⟩ => show win2_0.index t (1 : Fin 2) * 64 + 1 * k.val = k.val; omega

/-- The second operand's block at any point is the operand. -/
theorem rhs_block_apply (c : Dev nD) (t : Fin cfg2.N) (k : Fin 64) (q : Fin 2) :
    (iblk2 V c 1 t : Vec Ideal S64x2 .f32) (ix2 k q) = (V c main_arg4 : FVec Ideal S64x2 .f32) (ix2 k q) := by
  obtain ⟨e0, e1, e2, e3, e4, e5⟩ := idx_facts t
  unfold iblk2
  rw [View.read_apply]
  show V c main_arg4 _ = V c main_arg4 _
  congr 1
  funext a
  apply Fin.ext
  match a with
  | ⟨0, _⟩ => show win2_1.index t (0 : Fin 2) * 64 + 1 * k.val = k.val; omega
  | ⟨1, _⟩ => show win2_1.index t (1 : Fin 2) * 2 + 1 * q.val = q.val; omega

/-- What point `t` writes back is block `t` of the product of the two operands as the region finds them. -/
theorem flushed_eq (c : Dev nD) (t : Fin cfg2.N) :
    (dat2 (F := Ideal) V c).flushed 2 t
      = ((cfg2.win 2).blk t).view.read (Elt Ideal) (matProd 100000 64 2 (V c main_v45) (V c main_arg4)) := by
  show (cfg2.win 2).cut (grid2.coords t) ((dat2 V c).after 2 t) = _
  rw [after2_2]
  unfold out2_2
  rw [View.canon_unit_zero zero_off]
  simp only [View.ld_unit_zero (S := S2000x64) zero_off, View.ld_unit_zero (S := S64x2) zero_off]
  obtain ⟨e0, e1, e2, e3, e4, e5⟩ := idx_facts t
  funext j
  show k2_pay1 (iblk2 V c 0 t) (iblk2 V c 1 t) j
    = matProd 100000 64 2 (V c main_v45) (V c main_arg4) (((cfg2.win 2).blk t).view.emb j)
  obtain ⟨p, q, hj⟩ : ∃ (p : Fin 2000) (q : Fin 2), (j : S2000x2.Idx) = ix2 p q := ⟨j 0, j 1, eq_ix2 (n0 := 2000) (n1 := 2) j⟩
  subst hj
  refine (pay_apply (iblk2 V c 0 t) (iblk2 V c 1 t) p q).trans ?_
  unfold matProd
  refine Finset.sum_congr rfl fun k _ => ?_
  have hq : ((((cfg2.win 2).blk t).view.emb (ix2 p q)) 1 : Fin 2) = q :=
    Fin.ext (by show win2_2.index t (1 : Fin 2) * 2 + 1 * q.val = q.val; omega)
  have hl := lhs_block_apply V c t p k ((((cfg2.win 2).blk t).view.emb (ix2 p q)) 0) rfl
  have hr := rhs_block_apply V c t k q
  rw [hl, hr, hq]

/-- An index of the array is in point `t`'s block iff each coordinate is in the block's range on its axis. -/
theorem mem_blk (t : Fin cfg2.N) (i : S100000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v46).slice (win2_2.rect t)).set ↔ _
  rw [View.set_slice_whole, Rect.mem_set_unit]
  exact Iff.rfl

/-- The blocks cover the array: row `r` is in the block of the point whose row block is `r / 2000`. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 2 ≤ (i 1).val ∧ (i 1).val < win2_2.index t (1 : Fin 2) * 2 + 2; omega

/-- The region's output array is the product of its two operand arrays as the region finds them. -/
theorem array_eq (c : Dev nD) :
    (dat2 (F := Ideal) V c).arrAt 2 cfg2.N = matProd 100000 64 2 (V c main_v45) (V c main_arg4) :=
  (dat2 V c).arrAt_eq_of_cover 2 (matProd 100000 64 2 (V c main_v45) (V c main_arg4)) (fun t _ => flushed_eq V c t) cover

end Cert.KernelIdeal.Region2

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.Region3.lean ====
import proofs.«157829_j3470333575753_1_alg».proof.Proof.Gen.KernelIdeal.Frame
import proofs.«157829_j3470333575753_1_alg».proof.Proof.Spec
import Idealize.ShloMosaic.Lib.Pipeline.Value
import Idealize.ShloMosaic.Lib.ValueIdx
import Idealize.ShloMosaic.PureOps.Ideal.Laws
import proofs.«157829_j3470333575753_1_alg».proof.Proof.LibColumns

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-!
  Region 3, read as one function of whole arrays. Its body, on a block of 2000 rows and two columns and the bias row,
  adds the bias row to every row, subtracts each row's maximum, and takes off the logarithm of the row's sum of
  exponentials: the logarithm of the row-wise softmax of the biased block (`body_eq`). Block row `p` of grid point `t` is
  the array's row `t · 2000 + p` and a block spans both columns, so a row's maximum and sum are over the same two
  entries in the block and in the array (`rows_congr`, `flushed_eq`); the 50 blocks cover the 100000 rows (`cover`); so the
  output array is the logarithm of the row-wise softmax of the whole biased array (`array_eq`).
-/

/-! ## The body on one block -/

/-- A row `[1, b]` broadcast to `[a, b]` reads, at `(p, q)`, the row's entry `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A lane maximum over the second axis of an `[n, b]` array of extended reals, from the accumulator word `acc`, is at
    row `r` the fold of `max` from `acc`'s value over that row's entries. -/
theorem rowMax_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have e : (src ∘ h.lift (ix1 r)) = fun k : Fin b => src (ix2 r k) := by
    funext k
    refine congrArg src ?_
    funext ax
    apply Fin.ext
    match ax with
    | ⟨0, _⟩ => rfl
    | ⟨1, _⟩ => rfl
  exact congrArg (fun f => (Finset.univ : Finset (Fin b)).fold max (Ideal.ofBits φ acc) f) e

/-- The block's row maxima, as the body lays them out again over `[2000, 2]`: at `(p, q)` the maximum of row `p`. -/
theorem maxCol_apply (z : FVec Ideal S2000x2 .f32) (p : Fin 2000) (q : Fin 2) :
    broadcastTo S2000x2 (shapeCast S2000x1 (multiReduction (F := Ideal) .maximumf [1] S2000 z 0xFF800000#32 reduces_S2000x2_S2000 (.inl rfl) rfl)
      shapeCasts_S2000_S2000x1) broadcasts_S2000x1_S2000x2 (ix2 p q) = rowMax 2000 2 z p :=
  (Cert.Columns.broadcastTo_a1_ab_apply _ _ p q).trans
    ((Cert.Columns.shapeCast_a_a1_apply _ _ p 0).trans (rowMax_apply z _ _ _ rfl p))

/-- The logarithm of the block's row sums, laid out again over `[2000, 2]`: at `(p, q)` the logarithm of row `p`'s sum. -/
theorem logSumCol_apply (e : FVec Ideal S2000x2 .f32) (p : Fin 2000) (q : Fin 2) :
    broadcastTo S2000x2 (log (shapeCast S2000x1 (multiReduction (F := Ideal) .add [1] S2000 e 0x00000000#32 reduces_S2000x2_S2000 (.inl rfl) rfl)
      shapeCasts_S2000_S2000x1)) broadcasts_S2000x1_S2000x2 (ix2 p q) = Ideal.log (∑ k : Fin 2, e (ix2 p k)) :=
  (Cert.Columns.broadcastTo_a1_ab_apply _ _ p q).trans
    (congrArg Ideal.log ((Cert.Columns.shapeCast_a_a1_apply _ _ p 0).trans (Cert.Columns.rowSum_apply e _ _ _ rfl p)))

/-- The body's first stage: the bias row added to every row of the block. -/
theorem biased_eq (x0 : Vec Ideal S2000x2 .f32) (x1 : Vec Ideal S1x2 .f32) :
    addf (shapeCast S2000x2 x0 shapeCasts_S2000x2_S2000x2) (broadcastTo S2000x2 (shapeCast S1x2 x1 shapeCasts_S1x2_S1x2) broadcasts_S1x2_S2000x2)
      = addRow 2000 2 x0 x1 := by
  funext i
  obtain ⟨p, q, rfl⟩ : ∃ (p : Fin 2000) (q : Fin 2), i = ix2 p q := ⟨i 0, i 1, eq_ix2 i⟩
  rw [shapeCast_self, shapeCast_self]
  exact congrArg (x0 (ix2 p q) + ·) (broadcastTo_1b_ab_apply x1 _ p q)

/-- THE BODY ON ONE BLOCK: the logarithm of the row-wise softmax of the block with the bias row added. -/
theorem body_eq (x0 : Vec Ideal S2000x2 .f32) (x1 : Vec Ideal S1x2 .f32) :
    k3_pay1 x0 x1 = logSoftmaxRows 2000 2 (addRow 2000 2 x0 x1) := by
  funext i
  obtain ⟨p, q, rfl⟩ : ∃ (p : Fin 2000) (q : Fin 2), i = ix2 p q := ⟨i 0, i 1, eq_ix2 i⟩
  simp only [k3_pay1]
  rw [biased_eq]
  generalize addRow 2000 2 x0 x1 = z
  rw [subf_apply, subf_apply, maxCol_apply z p q, logSumCol_apply _ p q]
  show _ = (z (ix2 p q) - rowMax 2000 2 z p) - Ideal.log (∑ k : Fin 2, Ideal.exp (z (ix2 p k) - rowMax 2000 2 z p))
  refine congrArg (fun s => z (ix2 p q) - rowMax 2000 2 z p - Ideal.log s) (Finset.sum_congr rfl fun k _ => ?_)
  exact congrArg Ideal.exp (congrArg (z (ix2 p k) - ·) (maxCol_apply z p k))

/-! ## From blocks to the array -/

/-- Rows that agree entry by entry, with bias rows that agree, have the same logarithm of softmax: row `p` of a block
    against row `r` of the whole array. -/
theorem rows_congr (A : FVec Ideal ⟨2, ![100000, 2]⟩ .f32) (b : FVec Ideal ⟨2, ![1, 2]⟩ .f32)
    (x0 : FVec Ideal ⟨2, ![2000, 2]⟩ .f32) (x1 : FVec Ideal ⟨2, ![1, 2]⟩ .f32) (r : Fin 100000) (p : Fin 2000)
    (h0 : ∀ k : Fin 2, x0 (ix2 p k) = A (ix2 r k)) (h1 : ∀ k : Fin 2, x1 (ix2 (0 : Fin 1) k) = b (ix2 (0 : Fin 1) k)) (q : Fin 2) :
    logSoftmaxRows 2000 2 (addRow 2000 2 x0 x1) (ix2 p q) = logSoftmaxRows 100000 2 (addRow 100000 2 A b) (ix2 r q) := by
  have hz : ∀ k : Fin 2, addRow 2000 2 x0 x1 (ix2 p k) = addRow 100000 2 A b (ix2 r k) := fun k => by
    show x0 (ix2 p k) + x1 (ix2 (0 : Fin 1) k) = A (ix2 r k) + b (ix2 (0 : Fin 1) k)
    rw [h0, h1]
  have hM : rowMax 2000 2 (addRow 2000 2 x0 x1) p = rowMax 100000 2 (addRow 100000 2 A b) r := by
    unfold rowMax
    exact congrArg (fun f => (Finset.univ : Finset (Fin 2)).fold max (Ideal.ofBits .f32 0xFF800000#32) f) (funext hz)
  show (addRow 2000 2 x0 x1 (ix2 p q) - rowMax 2000 2 (addRow 2000 2 x0 x1) p)
        - Ideal.log (∑ k : Fin 2, Ideal.exp (addRow 2000 2 x0 x1 (ix2 p k) - rowMax 2000 2 (addRow 2000 2 x0 x1) p))
     = (addRow 100000 2 A b (ix2 r q) - rowMax 100000 2 (addRow 100000 2 A b) r)
        - Ideal.log (∑ k : Fin 2, Ideal.exp (addRow 100000 2 A b (ix2 r k) - rowMax 100000 2 (addRow 100000 2 A b) r))
  rw [hM, hz q]
  exact congrArg (fun s => _ - Ideal.log s) (Finset.sum_congr rfl fun k _ => by rw [hz k])

theorem zero_off : (![0, 0] : Fin 2 → Nat) = fun _ => 0 := funext fun a => by fin_cases a <;> rfl

/-- The printed index maps, decided once over the grid: the block of rows moves with the output's, both span the two
    columns, the bias row stays, and the output's row-block index stays below 50. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 49 :=
  (by decide +kernel : ∀ t : Fin grid3.N, _)

/-- Every block of rows is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

/-- WHAT POINT `t` WRITES BACK is block `t` of the logarithm of the row-wise softmax of the whole biased array: block
    row `p` of point `t` is the array's row `t · 2000 + p`, whose two entries are the block row's. -/
theorem flushed_eq (c : Dev nD) (t : Fin cfg3.N) :
    (dat3 V c).flushed 2 t
      = ((cfg3.win 2).blk t).view.read (Elt Ideal) (logSoftmaxRows 100000 2 (addRow 100000 2 (V c main_v59) (V c main_v60))) := by
  show (cfg3.win 2).cut (grid3.coords t) ((dat3 V c).after 2 t) = _
  rw [after3_2]
  unfold out3_2
  rw [View.canon_unit_zero zero_off]
  simp only [View.ld_unit_zero (S := S2000x2) zero_off, View.ld_unit_zero (S := S1x2) zero_off]
  rw [body_eq]
  obtain ⟨e00, e01, e10, e11, e21, e20⟩ := idx_facts t
  funext j
  obtain ⟨p, q, rfl⟩ : ∃ (p : Fin 2000) (q : Fin 2), j = ix2 p q := ⟨j 0, j 1, eq_ix2 j⟩
  have hp : p.val < 2000 := p.isLt
  have hq : q.val < 2 := q.isLt
  refine (rows_congr (V c main_v59) (V c main_v60) (iblk3 V c 0 t) (iblk3 V c 1 t)
    ⟨win3_2.index t (0 : Fin 2) * 2000 + p.val, by omega⟩ p (fun k => ?_) (fun k => ?_) q).trans ?_
  · show V c main_v59 (((cfg3.win 0).blk t).view.emb (ix2 p k)) = V c main_v59 (ix2 _ k)
    refine congrArg (V c main_v59) (funext fun a => Fin.ext ?_)
    have hk : k.val < 2 := k.isLt
    match a with
    | ⟨0, _⟩ => show win3_0.index t (0 : Fin 2) * 2000 + 1 * p.val = win3_2.index t (0 : Fin 2) * 2000 + p.val; omega
    | ⟨1, _⟩ => show win3_0.index t (1 : Fin 2) * 2 + 1 * k.val = k.val; omega
  · show V c main_v60 (((cfg3.win 1).blk t).view.emb (ix2 (0 : Fin 1) k)) = V c main_v60 (ix2 (0 : Fin 1) k)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 2 + 1 * k.val = k.val; omega
  · show _ = logSoftmaxRows 100000 2 (addRow 100000 2 (V c main_v59) (V c main_v60)) (((cfg3.win 2).blk t).view.emb (ix2 p q))
    refine congrArg (logSoftmaxRows 100000 2 (addRow 100000 2 (V c main_v59) (V c main_v60))) (funext fun a => Fin.ext ?_)
    match a with
    | ⟨0, _⟩ => show win3_2.index t (0 : Fin 2) * 2000 + p.val = win3_2.index t (0 : Fin 2) * 2000 + 1 * p.val; omega
    | ⟨1, _⟩ => show q.val = win3_2.index t (1 : Fin 2) * 2 + 1 * q.val; omega

/-- An index of the array is in point `t`'s block iff each coordinate is in the block's range on its axis. -/
theorem mem_blk (t : Fin cfg3.N) (i : S100000x2.Idx) :
    i ∈ ((cfg3.win 2).blk t).view.set ↔ ∀ a : Fin 2, win3_2.index t a * S2000x2.size a ≤ (i a).val
      ∧ (i a).val < win3_2.index t a * S2000x2.size a + S2000x2.size a := by
  show i ∈ ((View.whole main_v61).slice (win3_2.rect t)).set ↔ _
  rw [View.set_slice_whole, Rect.mem_set_unit]
  exact Iff.rfl

/-- The blocks cover the array: row `r` is in the block of the point whose row-block index is `r / 2000`, and every block
    spans both columns. -/
theorem cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 2 ≤ (i 1).val ∧ (i 1).val < win3_2.index t (1 : Fin 2) * 2 + 2
    omega

/-- THE ARRAY after the region: the logarithm of the row-wise softmax of the first input array with the second, a bias
    row, added to every row. -/
theorem array_eq (c : Dev nD) :
    (dat3 (F := Ideal) V c).arrAt 2 cfg3.N = logSoftmaxRows 100000 2 (addRow 100000 2 (V c main_v59) (V c main_v60)) :=
  (dat3 V c).arrAt_eq_of_cover 2 (logSoftmaxRows 100000 2 (addRow 100000 2 (V c main_v59) (V c main_v60)))
    (fun t _ => flushed_eq V c t) cover

end Cert.KernelIdeal.Region3

end
-- ==== Proof.KernelValue.lean ====
/-
  The idealized kernel program's result as the one function of its arguments: the last region leaves the logarithm of the
  row-wise softmax of (its input plus the second bias); its input is the aggregation of the third region's product; that
  region's input is the second region's positive part of (the first aggregation plus the first bias); and the first
  aggregation is of the first region's product of the features and the first weights. Each region's array is the
  whole-array function of what the region finds on entry, and what it finds is what the stretch before it left.
-/
import proofs.«157829_j3470333575753_1_alg».proof.Proof.HostK
import proofs.«157829_j3470333575753_1_alg».proof.Proof.Gcn
import proofs.«157829_j3470333575753_1_alg».proof.Proof.Region0
import proofs.«157829_j3470333575753_1_alg».proof.Proof.Region1
import proofs.«157829_j3470333575753_1_alg».proof.Proof.Region2
import proofs.«157829_j3470333575753_1_alg».proof.Proof.Region3

noncomputable section

namespace Cert.KernelIdeal.KernelValue

open Cert.KernelIdeal Cert.KernelIdeal.Gen Cert.KernelIdeal.HostFns Cert.KernelIdeal.HostSide Cert.Gcn
open Idealize.ShloMosaic Idealize.ShloMosaic.TcCoe Idealize.SL.Sem

variable (m : (ℓ : Loc nD τ sig) → Buf (Elt Ideal) ℓ) (ρ : Dev nD → PrngReg)

/-- The first region's product, from the launch contents. -/
theorem prod1 (c : Dev nD) : (dat0 (F := Ideal) (V3 m ρ) c).arrAt 2 cfg0.N
    = matProd 100000 512 64 (m ((c : Thread nD τ).loc main_arg0)) (m ((c : Thread nD τ).loc main_arg2)) := by
  rw [Region0.array_eq (V3 m ρ) c]
  rw [show V3 m ρ c main_arg0 = _ from arg0_W3 m ρ c, show V3 m ρ c main_arg2 = _ from arg2_W3 m ρ c]

/-- The second region's array is the first layer. -/
theorem relu (c : Dev nD) : (dat1 (F := Ideal) (V5 m ρ) c).arrAt 2 cfg1.N
    = layer1 (m ((c : Thread nD τ).loc main_arg0)) (m ((c : Thread nD τ).loc main_arg1)) (m ((c : Thread nD τ).loc main_arg2)) (m ((c : Thread nD τ).loc main_arg3)) := by
  rw [Region1.array_eq (V5 m ρ) c]
  rw [show V5 m ρ c main_v43 = _ from agg1_W5 m ρ c, show V5 m ρ c main_v44 = _ from bias1_W5 m ρ c, prod1 m ρ c]
  rfl

/-- The third region's product of the first layer and the second weights. -/
theorem prod2 (c : Dev nD) : (dat2 (F := Ideal) (V6 m ρ) c).arrAt 2 cfg2.N
    = matProd 100000 64 2 (layer1 (m ((c : Thread nD τ).loc main_arg0)) (m ((c : Thread nD τ).loc main_arg1)) (m ((c : Thread nD τ).loc main_arg2)) (m ((c : Thread nD τ).loc main_arg3)))
        (m ((c : Thread nD τ).loc main_arg4)) := by
  rw [Region2.array_eq (V6 m ρ) c]
  rw [show V6 m ρ c main_v45 = _ from relu_W6 m ρ c, show V6 m ρ c main_arg4 = _ from arg4_W6 m ρ c, relu m ρ c]

/-- The result array is the whole network of the launch contents. -/
theorem result (c : Dev nD) : (dat3 (F := Ideal) (V8 m ρ) c).arrAt 2 cfg3.N
    = gcnOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [Region3.array_eq (V8 m ρ) c]
  rw [show V8 m ρ c main_v59 = _ from agg2_W8 m ρ c, show V8 m ρ c main_v60 = _ from bias2_W8 m ρ c, prod2 m ρ c]
  rfl

end Cert.KernelIdeal.KernelValue

end
-- ==== Proof.RefAfter.lean ====
/-
  What the reference program's operations, run in order, leave in its result buffer: the last stage of the reference read
  one operation at a time (`val_main_v91`) of the launch contents of the six arguments. The operation list is read in five
  stretches, cut before each concatenate, so that a concatenate's operands are contents the stretch before it left; over
  each stretch the buffer contents it starts from are a variable with the facts the stretch needs, a buffer the stretch does
  not write keeps its contents, and the stretches are chained by `after (l₁ ++ l₂) V = after l₂ (after l₁ V)`.
-/
import proofs.«157829_j3470333575753_1_alg».proof.Proof.RefRun
import proofs.«157829_j3470333575753_1_alg».proof.Proof.RefRead
import Idealize.ShloMosaic.Lib.Pipeline.Frame

set_option maxRecDepth 16384

noncomputable section

namespace Cert.ReferenceIdeal.AfterRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Buffers a stretch does not write -/

set_option maxHeartbeats 4000000 in
theorem keepA_arg3 (V : Valuation τ sig (Elt F)) : after (opsA (F := F)) V (Proc.devRef .tc main_arg3) = V (Proc.devRef .tc main_arg3) := by
  after_results_simp

set_option maxHeartbeats 4000000 in
theorem keepA_arg4 (V : Valuation τ sig (Elt F)) : after (opsA (F := F)) V (Proc.devRef .tc main_arg4) = V (Proc.devRef .tc main_arg4) := by
  after_results_simp

set_option maxHeartbeats 4000000 in
theorem keepA_arg5 (V : Valuation τ sig (Elt F)) : after (opsA (F := F)) V (Proc.devRef .tc main_arg5) = V (Proc.devRef .tc main_arg5) := by
  after_results_simp

set_option maxHeartbeats 4000000 in
theorem keepB1_v1 (V : Valuation τ sig (Elt F)) : after (opsB1 (F := F)) V (Proc.devRef .tc main_v1) = V (Proc.devRef .tc main_v1) := by
  after_results_simp

set_option maxHeartbeats 4000000 in
theorem keepB1_v3 (V : Valuation τ sig (Elt F)) : after (opsB1 (F := F)) V (Proc.devRef .tc main_v3) = V (Proc.devRef .tc main_v3) := by
  after_results_simp

set_option maxHeartbeats 4000000 in
theorem keepB1_v4 (V : Valuation τ sig (Elt F)) : after (opsB1 (F := F)) V (Proc.devRef .tc main_v4) = V (Proc.devRef .tc main_v4) := by
  after_results_simp

set_option maxHeartbeats 4000000 in
theorem keepB1_v5 (V : Valuation τ sig (Elt F)) : after (opsB1 (F := F)) V (Proc.devRef .tc main_v5) = V (Proc.devRef .tc main_v5) := by
  after_results_simp

set_option maxHeartbeats 4000000 in
theorem keepB1_arg3 (V : Valuation τ sig (Elt F)) : after (opsB1 (F := F)) V (Proc.devRef .tc main_arg3) = V (Proc.devRef .tc main_arg3) := by
  after_results_simp

set_option maxHeartbeats 4000000 in
theorem keepB1_arg4 (V : Valuation τ sig (Elt F)) : after (opsB1 (F := F)) V (Proc.devRef .tc main_arg4) = V (Proc.devRef .tc main_arg4) := by
  after_results_simp

set_option maxHeartbeats 4000000 in
theorem keepB1_arg5 (V : Valuation τ sig (Elt F)) : after (opsB1 (F := F)) V (Proc.devRef .tc main_arg5) = V (Proc.devRef .tc main_arg5) := by
  after_results_simp

set_option maxHeartbeats 4000000 in
theorem keepB2_v1 (V : Valuation τ sig (Elt F)) : after (opsB2 (F := F)) V (Proc.devRef .tc main_v1) = V (Proc.devRef .tc main_v1) := by
  after_results_simp

set_option maxHeartbeats 4000000 in
theorem keepB2_v3 (V : Valuation τ sig (Elt F)) : after (opsB2 (F := F)) V (Proc.devRef .tc main_v3) = V (Proc.devRef .tc main_v3) := by
  after_results_simp

set_option maxHeartbeats 4000000 in
theorem keepB2_arg5 (V : Valuation τ sig (Elt F)) : after (opsB2 (F := F)) V (Proc.devRef .tc main_arg5) = V (Proc.devRef .tc main_arg5) := by
  after_results_simp

set_option maxHeartbeats 4000000 in
theorem keepC1_v3 (V : Valuation τ sig (Elt F)) : after (opsC1 (F := F)) V (Proc.devRef .tc main_v3) = V (Proc.devRef .tc main_v3) := by
  after_results_simp

set_option maxHeartbeats 4000000 in
theorem keepC1_v48 (V : Valuation τ sig (Elt F)) : after (opsC1 (F := F)) V (Proc.devRef .tc main_v48) = V (Proc.devRef .tc main_v48) := by
  after_results_simp

set_option maxHeartbeats 4000000 in
theorem keepC1_v49 (V : Valuation τ sig (Elt F)) : after (opsC1 (F := F)) V (Proc.devRef .tc main_v49) = V (Proc.devRef .tc main_v49) := by
  after_results_simp

set_option maxHeartbeats 4000000 in
theorem keepC1_arg5 (V : Valuation τ sig (Elt F)) : after (opsC1 (F := F)) V (Proc.devRef .tc main_arg5) = V (Proc.devRef .tc main_arg5) := by
  after_results_simp

/-! ## What each stretch computes -/

variable (x0 : (⟨S100000x512, .f32⟩ : BufTy).Contents (Elt F)) (x1 : (⟨S2x1600000, .i32⟩ : BufTy).Contents (Elt F)) (x2 : (⟨S512x64, .f32⟩ : BufTy).Contents (Elt F)) (x3 : (⟨S64, .f32⟩ : BufTy).Contents (Elt F)) (x4 : (⟨S64x2, .f32⟩ : BufTy).Contents (Elt F)) (x5 : (⟨S2, .f32⟩ : BufTy).Contents (Elt F))

set_option maxHeartbeats 4000000 in
theorem A_v1 (V : Valuation τ sig (Elt F)) (h1 : V (Proc.devRef .tc main_arg1) = x1) : after (opsA (F := F)) V (Proc.devRef .tc main_v1) = val_main_v1 x1 := by
  after_results_simp
  all_goals (rw [h1]; rfl)

set_option maxHeartbeats 4000000 in
theorem A_v3 (V : Valuation τ sig (Elt F)) (h1 : V (Proc.devRef .tc main_arg1) = x1) : after (opsA (F := F)) V (Proc.devRef .tc main_v3) = val_main_v3 x1 := by
  after_results_simp
  all_goals (rw [h1]; rfl)

set_option maxHeartbeats 4000000 in
theorem A_v4 (V : Valuation τ sig (Elt F)) (h0 : V (Proc.devRef .tc main_arg0) = x0) (h2 : V (Proc.devRef .tc main_arg2) = x2) : after (opsA (F := F)) V (Proc.devRef .tc main_v4) = val_main_v4 x0 x2 := by
  after_results_simp
  all_goals (rw [h0, h2]; rfl)

set_option maxHeartbeats 4000000 in
theorem A_v5 (V : Valuation τ sig (Elt F)) : after (opsA (F := F)) V (Proc.devRef .tc main_v5) = val_main_v5 (F := F) := by
  after_results_simp
  all_goals rfl

set_option maxHeartbeats 4000000 in
theorem B1_v6 (V : Valuation τ sig (Elt F)) (h1 : V (Proc.devRef .tc main_v1) = val_main_v1 x1) (h5 : V (Proc.devRef .tc main_v5) = val_main_v5 (F := F)) :
    after (opsB1 (F := F)) V (Proc.devRef .tc main_v6) = val_main_v6 x1 := by
  after_results_simp
  all_goals (rw [h1, h5]; rfl)

set_option maxHeartbeats 16000000 in
theorem B2_v48 (V : Valuation τ sig (Elt F)) (h6 : V (Proc.devRef .tc main_v6) = val_main_v6 x1) (h3 : V (Proc.devRef .tc main_v3) = val_main_v3 x1)
    (h5 : V (Proc.devRef .tc main_v5) = val_main_v5 (F := F)) (h4 : V (Proc.devRef .tc main_v4) = val_main_v4 x0 x2)
    (ha3 : V (Proc.devRef .tc main_arg3) = x3) (ha4 : V (Proc.devRef .tc main_arg4) = x4) :
    after (opsB2 (F := F)) V (Proc.devRef .tc main_v48) = val_main_v48 x0 x1 x2 x3 x4 := by
  after_results_simp
  all_goals (try simp only [TRef.ofBuf, TRef.toBuf, cast_eq])
  all_goals (rw [h6, h3, h5, h4, ha3, ha4]; rfl)

set_option maxHeartbeats 4000000 in
theorem B2_v49 (V : Valuation τ sig (Elt F)) : after (opsB2 (F := F)) V (Proc.devRef .tc main_v49) = val_main_v49 (F := F) := by
  after_results_simp
  all_goals rfl

set_option maxHeartbeats 4000000 in
theorem C1_v50 (V : Valuation τ sig (Elt F)) (h1 : V (Proc.devRef .tc main_v1) = val_main_v1 x1) (h49 : V (Proc.devRef .tc main_v49) = val_main_v49 (F := F)) :
    after (opsC1 (F := F)) V (Proc.devRef .tc main_v50) = val_main_v50 x1 := by
  after_results_simp
  all_goals (rw [h1, h49]; rfl)

set_option maxHeartbeats 16000000 in
theorem C2_v91 (V : Valuation τ sig (Elt F)) (h50 : V (Proc.devRef .tc main_v50) = val_main_v50 x1) (h3 : V (Proc.devRef .tc main_v3) = val_main_v3 x1)
    (h49 : V (Proc.devRef .tc main_v49) = val_main_v49 (F := F)) (h48 : V (Proc.devRef .tc main_v48) = val_main_v48 x0 x1 x2 x3 x4)
    (ha5 : V (Proc.devRef .tc main_arg5) = x5) :
    after (opsC2 (F := F)) V (Proc.devRef .tc main_v91) = val_main_v91 x0 x1 x2 x3 x4 x5 := by
  after_results_simp
  all_goals (try simp only [TRef.ofBuf, TRef.toBuf, cast_eq])
  all_goals (rw [h50, h3, h49, h48, ha5]; rfl)

/-! ## The whole list -/

/-- After all the operations, from contents `V` holding the arguments `x0 … x5`, the result buffer holds the reference's
    last stage of them. -/
theorem after_ops (V : Valuation τ sig (Elt F)) (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) (h5 : V (Proc.devRef .tc main_arg5) = x5) :
    after (ops (F := F)) V (Proc.devRef .tc main_v91) = val_main_v91 x0 x1 x2 x3 x4 x5 := by
  rw [ops_cut, StableHlo.after_append, StableHlo.after_append, StableHlo.after_append, StableHlo.after_append]
  have a1 := A_v1 x1 V h1
  have a3 := A_v3 x1 V h1
  have a4 := A_v4 x0 x2 V h0 h2
  have a5 := A_v5 (F := F) V
  have a_3 := (keepA_arg3 V).trans h3
  have a_4 := (keepA_arg4 V).trans h4
  have a_5 := (keepA_arg5 V).trans h5
  generalize after (opsA (F := F)) V = WA at *
  have b6 := B1_v6 x1 WA a1 a5
  have b3 := (keepB1_v3 WA).trans a3
  have b4 := (keepB1_v4 WA).trans a4
  have b5 := (keepB1_v5 WA).trans a5
  have b1 := (keepB1_v1 WA).trans a1
  have b_3 := (keepB1_arg3 WA).trans a_3
  have b_4 := (keepB1_arg4 WA).trans a_4
  have b_5 := (keepB1_arg5 WA).trans a_5
  generalize after (opsB1 (F := F)) WA = WB1 at *
  have c48 := B2_v48 x0 x1 x2 x3 x4 WB1 b6 b3 b5 b4 b_3 b_4
  have c49 := B2_v49 (F := F) WB1
  have c1 := (keepB2_v1 WB1).trans b1
  have c3 := (keepB2_v3 WB1).trans b3
  have c_5 := (keepB2_arg5 WB1).trans b_5
  generalize after (opsB2 (F := F)) WB1 = WB2 at *
  have d50 := C1_v50 x1 WB2 c1 c49
  have d3 := (keepC1_v3 WB2).trans c3
  have d48 := (keepC1_v48 WB2).trans c48
  have d49 := (keepC1_v49 WB2).trans c49
  have d_5 := (keepC1_arg5 WB2).trans c_5
  generalize after (opsC1 (F := F)) WB2 = WC1 at *
  exact C2_v91 x0 x1 x2 x3 x4 x5 WC1 d50 d3 d49 d48 d_5

end Cert.ReferenceIdeal.AfterRun

end
-- ==== Proof.RefStages.lean ====
/-
  Four stages of the reference, read at an index over the extended reals, are the whole-array functions of the
  specification: its two dot products are matrix products (a sum over the contracted index); its relu of the first
  aggregation plus the bias, broadcast over the rows, is the positive part of the row-biased matrix; and its log-softmax
  (row maximum from minus infinity, shift, exponential, row sum from zero, logarithm, shift) of the second aggregation
  plus the bias is the row-wise logarithm of the softmax. The aggregations themselves stay closed.
-/
import proofs.«157829_j3470333575753_1_alg».proof.Proof.RefRead
import proofs.«157829_j3470333575753_1_alg».proof.Proof.Spec
import proofs.«157829_j3470333575753_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.ReadP
open Idealize.ShloMosaic Idealize.ShloMosaic.TcCoe Idealize.ShloMosaic.ValueIdx Cert.Gcn

variable (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x2, .f32⟩ : BufTy).Contents (Elt Ideal)) (x5 : (⟨S2, .f32⟩ : BufTy).Contents (Elt Ideal))

theorem prod1 : val_main_v4 (F := Ideal) x0 x2 = matProd 100000 512 64 x0 x2 := by
  funext i
  rw [val_main_v4_apply]
  unfold matProd
  refine Finset.sum_congr rfl fun k _ => ?_
  have el : lidx_main_v4 i k = ix2 (i 0) k := funext fun a => by
    match a with
    | ⟨0, _⟩ => rfl
    | ⟨1, _⟩ => rfl
  have er : ridx_main_v4 i k = ix2 k (i 1) := funext fun a => by
    match a with
    | ⟨0, _⟩ => rfl
    | ⟨1, _⟩ => rfl
  rw [el, er]
  rfl

/-- A `[b]` array cast to the row `[1, b]` reads, at `(u, c)`, the operand at `c`: the row-major position of
    `(u, c)` in `[1, b]` is `u · b + c` with `u = 0`. -/
theorem shapeCast_b_1b_apply {α : Type} {b : ℕ} (x : (⟨1, ![b]⟩ : Shape).Idx → α)
    (h : (⟨1, ![b]⟩ : Shape).ShapeCasts ⟨2, ![1, b]⟩) (u : Fin 1) (c : Fin b) :
    shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

theorem layer1 (h : S64.ShapeCasts S1x64) :
    val_main_v47 (F := Ideal) x0 x1 x2 x3 = posPart 100000 64 (addRow 100000 64 (val_main_v43 (F := Ideal) x0 x1 x2) (shapeCast S1x64 x3 h)) := by
  funext i
  obtain ⟨r, j, rfl⟩ : ∃ (r : Fin 100000) (j : Fin 64), i = ix2 r j := ⟨i 0, i 1, eq_ix2 i⟩
  rw [val_main_v47_apply, val_main_v46_apply, val_main_v45_apply, val_main_v44_apply, val_main_call1_v0_apply,
    val_main_call1_cst_apply]
  generalize val_main_v43 (F := Ideal) x0 x1 x2 = a
  unfold Cert.Gcn.posPart Cert.Gcn.addRow
  have e1 : idx_main_v44 (idx_main_v45 (ix2 r j)) = ix1 j := funext fun c => by
    match c with
    | ⟨0, _⟩ => rfl
  have e2 : shapeCast S1x64 x3 h (ix2 (0 : Fin 1) j) = x3 (ix1 j) := shapeCast_b_1b_apply x3 h 0 j
  rw [e1]
  show max (a (ix2 r j) + x3 (ix1 j)) (Ideal.ofBits .f32 0x00000000#32)
    = max (a (ix2 r j) + shapeCast S1x64 x3 h (ix2 (0 : Fin 1) j)) (Ideal.ofBits .f32 0x00000000#32)
  rw [e2]

theorem prod2 : val_main_v48 (F := Ideal) x0 x1 x2 x3 x4 = matProd 100000 64 2 (val_main_v47 (F := Ideal) x0 x1 x2 x3) x4 := by
  funext i
  rw [val_main_v48_apply]
  generalize val_main_v47 (F := Ideal) x0 x1 x2 x3 = y
  unfold matProd
  refine Finset.sum_congr rfl fun k _ => ?_
  have el : lidx_main_v48 i k = ix2 (i 0) k := funext fun a => by
    match a with
    | ⟨0, _⟩ => rfl
    | ⟨1, _⟩ => rfl
  have er : ridx_main_v48 i k = ix2 k (i 1) := funext fun a => by
    match a with
    | ⟨0, _⟩ => rfl
    | ⟨1, _⟩ => rfl
  rw [el, er]
  rfl

/-- The maximum with minus infinity on the left is the identity. -/
theorem max_negInf_left (y : Ideal .f32) : max (Ideal.ofBits .f32 0xFF800000#32) y = y := by
  simp [Ideal.ofBits, Ideal.ieee]

/-- A reduction with the maximum over the second axis of an `[n, 2]` array, from minus infinity, is at row `r` the
    maximum of that row, folded from minus infinity. -/
theorem hostReduce_max_row (z : FVec Ideal ⟨2, ![100000, 2]⟩ .f32) (h' : S100000x2.ReducesTo [1] S100000)
    (hu : 0 < S_.numel) (r : Fin 100000) :
    Host.reduce FloatOps.maximumf z (constant (F := Ideal) S_ .f32 0xFF800000#32) h' hu (ix1 r) = rowMax 100000 2 z r := by
  have hr : S100000x2.Reduces [1] S100000 := by decide
  rw [Host.reduce_eq_fold_single FloatOps.maximumf z _ h' hr hu]
  unfold rowMax
  have hf : (z ∘ hr.lift (ix1 r)) = fun k : Fin 2 => z (ix2 r k) := funext fun k => congrArg z (by
    funext ax
    apply Fin.ext
    match ax with
    | ⟨0, _⟩ => rfl
    | ⟨1, _⟩ => rfl)
  exact congrArg (fun f => Finset.fold max (Ideal.ofBits .f32 0xFF800000#32) f (Finset.univ : Finset (Fin 2))) hf

/-- The operand of the log-softmax is the aggregated array with the bias row added to every row. -/
theorem logits_eq (h : S2.ShapeCasts S1x2) :
    val_main_v90 (F := Ideal) x0 x1 x2 x3 x4 x5
      = addRow 100000 2 (val_main_v87 (F := Ideal) x0 x1 x2 x3 x4) (shapeCast S1x2 x5 h) := by
  funext i
  obtain ⟨r, j, rfl⟩ : ∃ (r : Fin 100000) (j : Fin 2), i = ix2 r j := ⟨i 0, i 1, eq_ix2 i⟩
  rw [val_main_v90_apply, val_main_v89_apply, val_main_v88_apply]
  generalize val_main_v87 (F := Ideal) x0 x1 x2 x3 x4 = a
  unfold Cert.Gcn.addRow
  have e1 : idx_main_v88 (idx_main_v89 (ix2 r j)) = ix1 j := funext fun c => by
    match c with
    | ⟨0, _⟩ => rfl
  have e2 : shapeCast S1x2 x5 h (ix2 (0 : Fin 1) j) = x5 (ix1 j) := shapeCast_b_1b_apply x5 h 0 j
  rw [e1]
  show a (ix2 r j) + x5 (ix1 j) = a (ix2 r j) + shapeCast S1x2 x5 h (ix2 (0 : Fin 1) j)
  rw [e2]

/-- The row maximum the program subtracts: at row `r`, the maximum of the operand's row `r`. -/
theorem rowMax_read (r : Fin 100000) :
    val_main_call3_v2 (F := Ideal) x0 x1 x2 x3 x4 x5 (ix1 r)
      = rowMax 100000 2 (val_main_v90 (F := Ideal) x0 x1 x2 x3 x4 x5) r := by
  rw [val_main_call3_v2_apply, val_main_call3_v1_apply, val_main_call3_cst_0_apply]
  unfold val_main_call3_v0
  generalize val_main_v90 (F := Ideal) x0 x1 x2 x3 x4 x5 = z
  unfold val_main_call3_cst
  rw [hostReduce_max_row]
  exact max_negInf_left _

/-- The shifted operand: entry `(r, j)` minus the maximum of row `r`. -/
theorem shifted_read (r : Fin 100000) (j : Fin 2) :
    val_main_call3_v5 (F := Ideal) x0 x1 x2 x3 x4 x5 (ix2 r j)
      = val_main_v90 (F := Ideal) x0 x1 x2 x3 x4 x5 (ix2 r j)
        - rowMax 100000 2 (val_main_v90 (F := Ideal) x0 x1 x2 x3 x4 x5) r := by
  rw [val_main_call3_v5_apply, val_main_call3_v4_apply, val_main_call3_v3_apply]
  have e : idx_main_call3_v3 (idx_main_call3_v4 (ix2 r j)) = ix1 r := funext fun c => by
    match c with
    | ⟨0, _⟩ => rfl
  rw [e, rowMax_read]
  rfl

/-- The row sum of the exponentials of the shifted operand. -/
theorem expSum_read (r : Fin 100000) :
    val_main_call3_v7 (F := Ideal) x0 x1 x2 x3 x4 x5 (ix1 r)
      = ∑ q : Fin 2, Ideal.exp (val_main_v90 (F := Ideal) x0 x1 x2 x3 x4 x5 (ix2 r q)
          - rowMax 100000 2 (val_main_v90 (F := Ideal) x0 x1 x2 x3 x4 x5) r) := by
  rw [val_main_call3_v7_apply, val_main_call3_cst_1_apply]
  show Ideal.ofBits .f32 0x00000000#32 + _ = _
  rw [Ideal.ofBits_zero_f32, zero_add]
  refine Finset.sum_congr rfl fun q _ => ?_
  have e : idx_main_call3_v7 (ix1 r) q = ix2 r q := funext fun c => by
    match c with
    | ⟨0, _⟩ => rfl
    | ⟨1, _⟩ => rfl
  rw [e, val_main_call3_v6_apply, shifted_read]
  exact Ideal.hostUnary_exp_def _

/-- The logarithm of the row sum, broadcast back over the row. -/
theorem logSum_read (r : Fin 100000) (j : Fin 2) :
    val_main_call3_v10 (F := Ideal) x0 x1 x2 x3 x4 x5 (ix2 r j)
      = Ideal.log (∑ q : Fin 2, Ideal.exp (val_main_v90 (F := Ideal) x0 x1 x2 x3 x4 x5 (ix2 r q)
          - rowMax 100000 2 (val_main_v90 (F := Ideal) x0 x1 x2 x3 x4 x5) r)) := by
  rw [val_main_call3_v10_apply, val_main_call3_v9_apply, val_main_call3_v8_apply]
  have e : idx_main_call3_v8 (idx_main_call3_v10 (ix2 r j)) = ix1 r := funext fun c => by
    match c with
    | ⟨0, _⟩ => rfl
  rw [e, expSum_read]
  exact Ideal.hostUnary_log_def _

theorem out (h : S2.ShapeCasts S1x2) :
    val_main_v91 (F := Ideal) x0 x1 x2 x3 x4 x5 = logSoftmaxRows 100000 2 (addRow 100000 2 (val_main_v87 (F := Ideal) x0 x1 x2 x3 x4) (shapeCast S1x2 x5 h)) := by
  rw [← logits_eq x0 x1 x2 x3 x4 x5 h]
  funext i
  obtain ⟨r, j, rfl⟩ : ∃ (r : Fin 100000) (j : Fin 2), i = ix2 r j := ⟨i 0, i 1, eq_ix2 i⟩
  rw [val_main_v91_apply, shifted_read, logSum_read]
  generalize val_main_v90 (F := Ideal) x0 x1 x2 x3 x4 x5 = z
  unfold logSoftmaxRows
  rfl

end Cert.ReferenceIdeal.Stages

end
-- ==== Proof.RefCross.lean ====
/-
  The sparse stage is the same in both programs. The reference's stages for the edge endpoints with self loops, the edge
  weights and the two aggregations are the kernel program's host operations on the same operands, record for record: each
  equation below is closed by unfolding the two sides to the same term. The reference computes the endpoints and the
  weights once per layer; both copies are the one function of the edge list.
-/
import proofs.«157829_j3470333575753_1_alg».proof.Proof.RefRead
import proofs.«157829_j3470333575753_1_alg».proof.Proof.HostFns

set_option maxRecDepth 16384

noncomputable section

namespace Cert.ReferenceIdeal.Cross

open Cert.ReferenceIdeal.ReadP Cert.KernelIdeal.HostFns
open Idealize.ShloMosaic

variable {F : FTy → Type} [FloatOps F]
variable (x0 : (⟨Cert.ReferenceIdeal.S100000x512, .f32⟩ : BufTy).Contents (Elt F)) (x1 : (⟨Cert.ReferenceIdeal.S2x1600000, .i32⟩ : BufTy).Contents (Elt F)) (x2 : (⟨Cert.ReferenceIdeal.S512x64, .f32⟩ : BufTy).Contents (Elt F)) (x3 : (⟨Cert.ReferenceIdeal.S64, .f32⟩ : BufTy).Contents (Elt F)) (x4 : (⟨Cert.ReferenceIdeal.S64x2, .f32⟩ : BufTy).Contents (Elt F))

set_option maxHeartbeats 2000000 in
theorem src1 : val_main_v6 (F := F) x1 = srcSl x1 := rfl

set_option maxHeartbeats 2000000 in
theorem dst1 : val_main_v7 (F := F) x1 = dstSl x1 := rfl

set_option maxHeartbeats 2000000 in
theorem src2 : val_main_v50 (F := F) x1 = srcSl x1 := rfl

set_option maxHeartbeats 2000000 in
theorem dst2 : val_main_v51 (F := F) x1 = dstSl x1 := rfl

set_option maxHeartbeats 4000000 in
theorem norm1 : val_main_v30 (F := F) x1 = edgeNorm (srcSl x1) (dstSl x1) := by
  rw [← src1 x1, ← dst1 x1]; rfl

set_option maxHeartbeats 4000000 in
theorem norm2 : val_main_v74 (F := F) x1 = edgeNorm (srcSl x1) (dstSl x1) := by
  rw [← src2 x1, ← dst2 x1]; rfl

set_option maxHeartbeats 4000000 in
theorem agg1 : val_main_v43 (F := F) x0 x1 x2 = agg64 (srcSl x1) (dstSl x1) (edgeNorm (srcSl x1) (dstSl x1)) (val_main_v4 (F := F) x0 x2) := by
  rw [← norm1 x1, ← src1 x1, ← dst1 x1]; rfl

set_option maxHeartbeats 4000000 in
theorem agg2' : val_main_v87 (F := F) x0 x1 x2 x3 x4 = agg2 (srcSl x1) (dstSl x1) (edgeNorm (srcSl x1) (dstSl x1)) (val_main_v48 (F := F) x0 x1 x2 x3 x4) := by
  rw [← norm2 x1, ← src2 x1, ← dst2 x1]; rfl

end Cert.ReferenceIdeal.Cross

end
-- ==== Proof.RefValue.lean ====
/-
  The reference's last stage is the whole network of its arguments: its first dot product is the matrix product, its
  first aggregation the common aggregation of that, its relu of the biased sum the first layer, its second dot product
  the matrix product of the first layer and the second weights, its second aggregation the common aggregation of that,
  and its log-softmax of the biased sum the row-wise one.
-/
import proofs.«157829_j3470333575753_1_alg».proof.Proof.RefStages
import proofs.«157829_j3470333575753_1_alg».proof.Proof.RefCross
import proofs.«157829_j3470333575753_1_alg».proof.Proof.Gcn

noncomputable section

namespace Cert.ReferenceIdeal.RefValue

open Cert.ReferenceIdeal.ReadP Cert.Gcn Idealize.ShloMosaic

variable (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x64, .f32⟩ : BufTy).Contents (Elt Ideal)) (x3 : (⟨Cert.ReferenceIdeal.S64, .f32⟩ : BufTy).Contents (Elt Ideal)) (x4 : (⟨Cert.ReferenceIdeal.S64x2, .f32⟩ : BufTy).Contents (Elt Ideal)) (x5 : (⟨Cert.ReferenceIdeal.S2, .f32⟩ : BufTy).Contents (Elt Ideal))

set_option maxHeartbeats 2000000 in
theorem result : val_main_v91 (F := Ideal) x0 x1 x2 x3 x4 x5 = gcnOut x0 x1 x2 x3 x4 x5 := by
  rw [Cert.ReferenceIdeal.Stages.out x0 x1 x2 x3 x4 x5 Cert.KernelIdeal.Facts₀.shapeCasts_S2_S1x2,
    Cert.ReferenceIdeal.Cross.agg2' x0 x1 x2 x3 x4,
    Cert.ReferenceIdeal.Stages.prod2 x0 x1 x2 x3 x4,
    Cert.ReferenceIdeal.Stages.layer1 x0 x1 x2 x3 Cert.KernelIdeal.Facts₀.shapeCasts_S64_S1x64,
    Cert.ReferenceIdeal.Cross.agg1 x0 x1 x2,
    Cert.ReferenceIdeal.Stages.prod1 x0 x2]
  rfl

end Cert.ReferenceIdeal.RefValue

end
-- ==== Proof.lean ====
/-
  Two programs for a two-layer graph convolution on 100000 nodes (features 512 → 64 → 2, 1.6 million edges plus one self
  loop per node), ending in a row-wise log-softmax, compute the same function over the extended reals.

  The kernel program runs its four dense stages as pipelined regions over row tiles of 2000 (two matrix products on
  operands cast to bf16, a bias-and-relu, a bias-and-log-softmax) and its sparse stage (degrees, symmetric edge weights,
  gather along the sources, scale, scatter-add at the destinations) as host operations between them; the reference runs
  everything as host operations. Over the extended reals a cast is the identity, a matrix product into a zero accumulator
  is the plain sum over the contracted index, a row tile of a whole-array function is that function on the tile's rows,
  and the sparse stage is term for term the same host computation on equal operands, so it is never opened. No law of
  arithmetic beyond these readings is used, and the finiteness of the inputs is not needed.

  Frames: the kernel programs' by the regions' launch over the host stretches; the reference's by its operations' run.
-/
import proofs.«157829_j3470333575753_1_alg».proof.Defs
import proofs.«157829_j3470333575753_1_alg».proof.Proof.Gen.Kernel
import proofs.«157829_j3470333575753_1_alg».proof.Proof.Gen.Kernel.Frame
import proofs.«157829_j3470333575753_1_alg».proof.Proof.Gen.KernelIdeal
import proofs.«157829_j3470333575753_1_alg».proof.Proof.Gen.KernelIdeal.Frame
import proofs.«157829_j3470333575753_1_alg».proof.Proof.Gen.ReferenceIdeal
import proofs.«157829_j3470333575753_1_alg».proof.Proof.Gen.Pre_finite_inputs
import proofs.«157829_j3470333575753_1_alg».proof.Proof.KernelRun
import proofs.«157829_j3470333575753_1_alg».proof.Proof.KernelValue
import proofs.«157829_j3470333575753_1_alg».proof.Proof.RefRun
import proofs.«157829_j3470333575753_1_alg».proof.Proof.RefAfter
import proofs.«157829_j3470333575753_1_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the whole network of the (agreeing) arguments in their result arrays. -/
theorem algebraic : Cert.algebraic_KernelIdeal_ReferenceIdeal := by
  intro m ρ m' ρ' _ hagree
  refine ⟨fun c => Cert.Gcn.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    exact (Cert.ReferenceIdeal.AfterRun.after_ops _ _ _ _ _ _ (StableHlo.launchContents m' c) h0 h1 h2 h3 h4 h5).trans
      (Cert.ReferenceIdeal.RefValue.result _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
